-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel

variable [Facts]

def fn_part1 {F : FTy → Type} [FloatOps F] (main_v13 : IVec S_ 1) (main_v16 : IVec S2000000x3 1) : IVec S_ 1 :=
  let main_c_5 : IVec S_ 1 := constantI S_ 1 1#1
  let main_v17 : IVec S_ 1 := (fun x v => Host.reduce IntOp.andi x v reducesTo_S2000000x3_S_d0_1 h_S_) main_v16 main_c_5
  let main_v18 : IVec S_ 1 := andi main_v13 main_v17
  main_v18

def fn {F : FTy → Type} [FloatOps F] (main_arg0 : FVec F S2000000x3 .f32) (main_arg1 : FVec F S2000000x3 .f32) (main_arg2 : FVec F S2000000x3 .f32) (main_arg3 : FVec F S2000000x3 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S2000000x3 .f32 := Host.absf main_arg2
  let main_cst_2 : FVec F S_ .f32 := constant S_ .f32 0x7F800000#32
  let main_v10 : FVec F S2000000x3 .f32 := broadcastInDim S2000000x3 ![] bcast_S_S2000000x3 main_cst_2
  let main_v11 : IVec S2000000x3 1 := cmpf .olt main_v9 main_v10
  let main_c_3 : IVec S_ 1 := constantI S_ 1 1#1
  let main_v12 : IVec S_ 1 := (fun x v => Host.reduce IntOp.andi x v reducesTo_S2000000x3_S_d0_1 h_S_) main_v11 main_c_3
  let main_v13 : IVec S_ 1 := andi main_v8 main_v12
  let main_v14 : FVec F S2000000x3 .f32 := Host.absf main_arg3
  let main_cst_4 : FVec F S_ .f32 := constant S_ .f32 0x7F800000#32
  let main_v15 : FVec F S2000000x3 .f32 := broadcastInDim S2000000x3 ![] bcast_S_S2000000x3 main_cst_4
  let main_v16 : IVec S2000000x3 1 := cmpf .olt main_v14 main_v15
  fn_part1 (F := F) main_v13 main_v16
-- ==== Kernel.lean ====
abbrev S2000000x3 : Shape := ⟨2, ![2000000, 3]⟩
abbrev S2000000x3x4 : Shape := ⟨3, ![2000000, 3, 4]⟩
abbrev S1000x3 : Shape := ⟨2, ![1000, 3]⟩
abbrev S1000x3x4 : Shape := ⟨3, ![1000, 3, 4]⟩
abbrev S1000x1 : Shape := ⟨2, ![1000, 1]⟩
abbrev S1000x4 : Shape := ⟨2, ![1000, 4]⟩
abbrev S1000x1x4 : Shape := ⟨3, ![1000, 1, 4]⟩

abbrev nBuf : Space → Nat
  | .hbm => 5
  | .vmem => 10
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S2000000x3, .f32⟩
  | .hbm, ⟨3, _⟩ => ⟨S2000000x3, .f32⟩
  | .hbm, ⟨4, _⟩ => ⟨S2000000x3x4, .f32⟩
  | .local _ .vmem, ⟨0, _⟩ => ⟨S1000x3, .f32⟩
  | .local _ .vmem, ⟨1, _⟩ => ⟨S1000x3, .f32⟩
  | .local _ .vmem, ⟨2, _⟩ => ⟨S1000x3, .f32⟩
  | .local _ .vmem, ⟨3, _⟩ => ⟨S1000x3, .f32⟩
  | .local _ .vmem, ⟨4, _⟩ => ⟨S1000x3, .f32⟩
  | .local _ .vmem, ⟨5, _⟩ => ⟨S1000x3, .f32⟩
  | .local _ .vmem, ⟨6, _⟩ => ⟨S1000x3, .f32⟩
  | .local _ .vmem, ⟨7, _⟩ => ⟨S1000x3, .f32⟩
  | .local _ .vmem, ⟨8, _⟩ => ⟨S1000x3x4, .f32⟩
  | .local _ .vmem, ⟨9, _⟩ => ⟨S1000x3x4, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x3x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1000x3_S1000x1_0_0 : ∀ a, (![0, 0] : Fin 2 → Nat) a + S1000x1.size a ≤ S1000x3.size a
  h_S1000x1 : 0 < S1000x1.numel
  inb_S1000x3_S1000x1_0_1 : ∀ a, (![0, 1] : Fin 2 → Nat) a + S1000x1.size a ≤ S1000x3.size a
  inb_S1000x3_S1000x1_0_2 : ∀ a, (![0, 2] : Fin 2 → Nat) a + S1000x1.size a ≤ S1000x3.size a
  concatenates_S1000x1_S1000x1_S1000x1_S1000x1_S1000x4_d1 : Shape.Concatenates [S1000x1, S1000x1, S1000x1, S1000x1] S1000x4 1
  shapeCasts_S1000x4_S1000x1x4 : S1000x4.ShapeCasts S1000x1x4
  concatenates_S1000x1x4_S1000x1x4_S1000x1x4_S1000x3x4_d1 : Shape.Concatenates [S1000x1x4, S1000x1x4, S1000x1x4] S1000x3x4 1
  inb_S1000x3x4_S1000x3x4_0_0_0 : ∀ a, (![0, 0, 0] : Fin 3 → Nat) a + S1000x3x4.size a ≤ S1000x3x4.size a
  h_S1000x3x4 : 0 < S1000x3x4.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x3.size a ≤ S2000000x3.size a
  hwx0_0 : ∀ i : grid0.Coords, EltTy.bits .f32 = 32 ∨ (Rect.block (s := S2000000x3) S1000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x3.size a ≤ S2000000x3.size a
  hwx0_1 : ∀ i : grid0.Coords, EltTy.bits .f32 = 32 ∨ (Rect.block (s := S2000000x3) S1000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x3.size a ≤ S2000000x3.size a
  hwx0_2 : ∀ i : grid0.Coords, EltTy.bits .f32 = 32 ∨ (Rect.block (s := S2000000x3) S1000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x3.size a ≤ S2000000x3.size a
  hwx0_3 : ∀ i : grid0.Coords, EltTy.bits .f32 = 32 ∨ (Rect.block (s := S2000000x3) S1000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x3x4.size a ≤ S2000000x3x4.size a
  hwx0_4 : ∀ i : grid0.Coords, EltTy.bits .f32 = 32 ∨ (Rect.block (s := S2000000x3x4) S1000x3x4.size (cc0_transform_4 i) (hinb0_4 i)).WholeWords (EltTy.packing .f32)

variable [Facts₀]

abbrev win0_0 : Pipeline.Window sig grid0 :=
  Pipeline.Window.ofSpec (Memref.whole main_arg0) S1000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1000x3x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S_ : Shape := ⟨0, ![]⟩
abbrev S2000000 : Shape := ⟨1, ![2000000]⟩
abbrev S2000000x1 : Shape := ⟨2, ![2000000, 1]⟩
abbrev S2000000x1x3 : Shape := ⟨3, ![2000000, 1, 3]⟩
abbrev S2000000x3x3 : Shape := ⟨3, ![2000000, 3, 3]⟩
abbrev S3x3 : Shape := ⟨2, ![3, 3]⟩
abbrev S2000000x1x1 : Shape := ⟨3, ![2000000, 1, 1]⟩
abbrev S1x3x3 : Shape := ⟨3, ![1, 3, 3]⟩
abbrev S2000000x3x1 : Shape := ⟨3, ![2000000, 3, 1]⟩
abbrev S2000000x3x4 : Shape := ⟨3, ![2000000, 3, 4]⟩

abbrev nBuf : Space → Nat
  | .hbm => 179
  | .vmem => 0
  | .smem => 0
  | _ => 0

abbrev hbmTy0_0 (i : Nat) : BufTy := match i % 128 with
  | 0 => ⟨S2000000x3, .f32⟩
  | 1 => ⟨S2000000x3, .f32⟩
  | 2 => ⟨S2000000x3, .f32⟩
  | 3 => ⟨S2000000x3, .f32⟩
  | 4 => ⟨S2000000x3, .f32⟩
  | 5 => ⟨S_, .f32⟩
  | 6 => ⟨S2000000, .f32⟩
  | 7 => ⟨S2000000, .f32⟩
  | 8 => ⟨S_, .f32⟩
  | 9 => ⟨S2000000, .f32⟩
  | 10 => ⟨S2000000, .i1⟩
  | 11 => ⟨S_, .f32⟩
  | 12 => ⟨S_, .f32⟩
  | 13 => ⟨S2000000, .f32⟩
  | 14 => ⟨S2000000, .f32⟩
  | 15 => ⟨S_, .f32⟩
  | 16 => ⟨S_, .f32⟩
  | 17 => ⟨S2000000, .f32⟩
  | 18 => ⟨S2000000, .f32⟩
  | 19 => ⟨S2000000, .f32⟩
  | 20 => ⟨S2000000, .f32⟩
  | 21 => ⟨S_, .f32⟩
  | 22 => ⟨S_, .f32⟩
  | 23 => ⟨S2000000, .f32⟩
  | 24 => ⟨S2000000, .f32⟩
  | 25 => ⟨S2000000, .f32⟩
  | 26 => ⟨S_, .f32⟩
  | 27 => ⟨S2000000, .f32⟩
  | 28 => ⟨S2000000, .f32⟩
  | 29 => ⟨S2000000, .f32⟩
  | 30 => ⟨S_, .f32⟩
  | 31 => ⟨S_, .f32⟩
  | 32 => ⟨S2000000, .f32⟩
  | 33 => ⟨S2000000, .f32⟩
  | 34 => ⟨S2000000x1, .f32⟩
  | 35 => ⟨S2000000, .f32⟩
  | 36 => ⟨S_, .f32⟩
  | 37 => ⟨S2000000, .f32⟩
  | 38 => ⟨S2000000x1, .f32⟩
  | 39 => ⟨S2000000, .f32⟩
  | 40 => ⟨S2000000, .f32⟩
  | 41 => ⟨S2000000x1, .f32⟩
  | 42 => ⟨S2000000, .f32⟩
  | 43 => ⟨S2000000x1, .f32⟩
  | 44 => ⟨S2000000x1, .f32⟩
  | 45 => ⟨S2000000x1, .f32⟩
  | 46 => ⟨S2000000x3, .f32⟩
  | 47 => ⟨S2000000x1, .f32⟩
  | 48 => ⟨S2000000, .f32⟩
  | 49 => ⟨S2000000x1, .f32⟩
  | 50 => ⟨S2000000, .f32⟩
  | 51 => ⟨S2000000, .f32⟩
  | 52 => ⟨S2000000x1, .f32⟩
  | 53 => ⟨S2000000x1, .f32⟩
  | 54 => ⟨S2000000x1, .f32⟩
  | 55 => ⟨S2000000x3, .f32⟩
  | 56 => ⟨S2000000x1, .f32⟩
  | 57 => ⟨S2000000, .f32⟩
  | 58 => ⟨S2000000, .f32⟩
  | 59 => ⟨S2000000x1, .f32⟩
  | 60 => ⟨S2000000, .f32⟩
  | 61 => ⟨S2000000x1, .f32⟩
  | 62 => ⟨S2000000x1, .f32⟩
  | 63 => ⟨S2000000x1, .f32⟩
  | 64 => ⟨S2000000x3, .f32⟩
  | 65 => ⟨S2000000x1x3, .f32⟩
  | 66 => ⟨S2000000x1x3, .f32⟩
  | 67 => ⟨S2000000x1x3, .f32⟩
  | 68 => ⟨S2000000x3x3, .f32⟩
  | 69 => ⟨S3x3, .i32⟩
  | 70 => ⟨S3x3, .i32⟩
  | 71 => ⟨S_, .i32⟩
  | 72 => ⟨S3x3, .i32⟩
  | 73 => ⟨S3x3, .i32⟩
  | 74 => ⟨S3x3, .i1⟩
  | 75 => ⟨S3x3, .f32⟩
  | 76 => ⟨S2000000x1x1, .f32⟩
  | 77 => ⟨S2000000x3x3, .f32⟩
  | 78 => ⟨S2000000x3x3, .f32⟩
  | 79 => ⟨S1x3x3, .f32⟩
  | 80 => ⟨S2000000x3x3, .f32⟩
  | 81 => ⟨S2000000x3x3, .f32⟩
  | 82 => ⟨S2000000x1x1, .f32⟩
  | 83 => ⟨S2000000x3x3, .f32⟩
  | 84 => ⟨S2000000x3x3, .f32⟩
  | 85 => ⟨S2000000x3x3, .f32⟩
  | 86 => ⟨S2000000x3x3, .f32⟩
  | 87 => ⟨S2000000x3, .f32⟩
  | 88 => ⟨S_, .f32⟩
  | 89 => ⟨S2000000, .f32⟩
  | 90 => ⟨S2000000, .f32⟩
  | 91 => ⟨S_, .f32⟩
  | 92 => ⟨S2000000, .f32⟩
  | 93 => ⟨S2000000, .i1⟩
  | 94 => ⟨S_, .f32⟩
  | 95 => ⟨S_, .f32⟩
  | 96 => ⟨S2000000, .f32⟩
  | 97 => ⟨S2000000, .f32⟩
  | 98 => ⟨S_, .f32⟩
  | 99 => ⟨S_, .f32⟩
  | 100 => ⟨S2000000, .f32⟩
  | 101 => ⟨S2000000, .f32⟩
  | 102 => ⟨S2000000, .f32⟩
  | 103 => ⟨S2000000, .f32⟩
  | 104 => ⟨S_, .f32⟩
  | 105 => ⟨S_, .f32⟩
  | 106 => ⟨S2000000, .f32⟩
  | 107 => ⟨S2000000, .f32⟩
  | 108 => ⟨S2000000, .f32⟩
  | 109 => ⟨S_, .f32⟩
  | 110 => ⟨S2000000, .f32⟩
  | 111 => ⟨S2000000, .f32⟩
  | 112 => ⟨S2000000, .f32⟩
  | 113 => ⟨S_, .f32⟩
  | 114 => ⟨S_, .f32⟩
  | 115 => ⟨S2000000, .f32⟩
  | 116 => ⟨S2000000, .f32⟩
  | 117 => ⟨S2000000x1, .f32⟩
  | 118 => ⟨S2000000, .f32⟩
  | 119 => ⟨S_, .f32⟩
  | 120 => ⟨S2000000, .f32⟩
  | 121 => ⟨S2000000x1, .f32⟩
  | 122 => ⟨S2000000, .f32⟩
  | 123 => ⟨S2000000, .f32⟩
  | 124 => ⟨S2000000x1, .f32⟩
  | 125 => ⟨S2000000, .f32⟩
  | 126 => ⟨S2000000x1, .f32⟩
  | 127 => ⟨S2000000x1, .f32⟩
  | _ => ⟨S2000000x3, .f32⟩

abbrev hbmTy0_1 (i : Nat) : BufTy := match i % 128 with
  | 0 => ⟨S2000000x1, .f32⟩
  | 1 => ⟨S2000000x3, .f32⟩
  | 2 => ⟨S2000000x1, .f32⟩
  | 3 => ⟨S2000000, .f32⟩
  | 4 => ⟨S2000000x1, .f32⟩
  | 5 => ⟨S2000000, .f32⟩
  | 6 => ⟨S2000000, .f32⟩
  | 7 => ⟨S2000000x1, .f32⟩
  | 8 => ⟨S2000000x1, .f32⟩
  | 9 => ⟨S2000000x1, .f32⟩
  | 10 => ⟨S2000000x3, .f32⟩
  | 11 => ⟨S2000000x1, .f32⟩
  | 12 => ⟨S2000000, .f32⟩
  | 13 => ⟨S2000000, .f32⟩
  | 14 => ⟨S2000000x1, .f32⟩
  | 15 => ⟨S2000000, .f32⟩
  | 16 => ⟨S2000000x1, .f32⟩
  | 17 => ⟨S2000000x1, .f32⟩
  | 18 => ⟨S2000000x1, .f32⟩
  | 19 => ⟨S2000000x3, .f32⟩
  | 20 => ⟨S2000000x1x3, .f32⟩
  | 21 => ⟨S2000000x1x3, .f32⟩
  | 22 => ⟨S2000000x1x3, .f32⟩
  | 23 => ⟨S2000000x3x3, .f32⟩
  | 24 => ⟨S3x3, .i32⟩
  | 25 => ⟨S3x3, .i32⟩
  | 26 => ⟨S_, .i32⟩
  | 27 => ⟨S3x3, .i32⟩
  | 28 => ⟨S3x3, .i32⟩
  | 29 => ⟨S3x3, .i1⟩
  | 30 => ⟨S3x3, .f32⟩
  | 31 => ⟨S2000000x1x1, .f32⟩
  | 32 => ⟨S2000000x3x3, .f32⟩
  | 33 => ⟨S2000000x3x3, .f32⟩
  | 34 => ⟨S1x3x3, .f32⟩
  | 35 => ⟨S2000000x3x3, .f32⟩
  | 36 => ⟨S2000000x3x3, .f32⟩
  | 37 => ⟨S2000000x1x1, .f32⟩
  | 38 => ⟨S2000000x3x3, .f32⟩
  | 39 => ⟨S2000000x3x3, .f32⟩
  | 40 => ⟨S2000000x3x3, .f32⟩
  | 41 => ⟨S2000000x3x3, .f32⟩
  | 42 => ⟨S2000000x3, .f32⟩
  | 43 => ⟨S2000000x3x3, .f32⟩
  | 44 => ⟨S2000000x3x1, .f32⟩
  | 45 => ⟨S2000000x3x3, .f32⟩
  | 46 => ⟨S2000000x3x3, .f32⟩
  | 47 => ⟨S2000000x3x3, .f32⟩
  | 48 => ⟨S2000000x3x3, .f32⟩
  | 49 => ⟨S2000000x3x1, .f32⟩
  | 50 => ⟨S2000000x3x4, .f32⟩
  | _ => ⟨S2000000x3, .f32⟩

abbrev hbmTy (i : Nat) : BufTy := match i / 128 with
  | 0 => hbmTy0_0 i
  | 1 => hbmTy0_1 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_call2_v0 : Ref sig .tc := ⟨.hbm, 22, rfl⟩
abbrev main_call2_v1 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_5 : Ref sig .tc := ⟨.hbm, 30, rfl⟩
abbrev main_call3_v0 : Ref sig .tc := ⟨.hbm, 31, rfl⟩
abbrev main_call3_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_7 : Ref sig .tc := ⟨.hbm, 88, rfl⟩
abbrev main_v67 : Ref sig .tc := ⟨.hbm, 89, rfl⟩
abbrev main_v68 : Ref sig .tc := ⟨.hbm, 90, rfl⟩
abbrev main_cst_8 : Ref sig .tc := ⟨.hbm, 91, rfl⟩
abbrev main_v69 : Ref sig .tc := ⟨.hbm, 92, rfl⟩
abbrev main_v70 : Ref sig .tc := ⟨.hbm, 93, rfl⟩
abbrev main_cst_9 : Ref sig .tc := ⟨.hbm, 94, rfl⟩
abbrev main_call4_v0 : Ref sig .tc := ⟨.hbm, 95, rfl⟩
abbrev main_call4_v1 : Ref sig .tc := ⟨.hbm, 96, rfl⟩
abbrev main_v71 : Ref sig .tc := ⟨.hbm, 97, rfl⟩
abbrev main_cst_10 : Ref sig .tc := ⟨.hbm, 98, rfl⟩
abbrev main_call5_v0 : Ref sig .tc := ⟨.hbm, 99, rfl⟩
abbrev main_call5_v1 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_11 : Ref sig .tc := ⟨.hbm, 104, rfl⟩
abbrev main_call6_v0 : Ref sig .tc := ⟨.hbm, 105, rfl⟩
abbrev main_call6_v1 : Ref sig .tc := ⟨.hbm, 106, rfl⟩
abbrev main_v75 : Ref sig .tc := ⟨.hbm, 107, rfl⟩
abbrev main_v76 : Ref sig .tc := ⟨.hbm, 108, rfl⟩
abbrev main_cst_12 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_13 : Ref sig .tc := ⟨.hbm, 113, rfl⟩
abbrev main_call7_v0 : Ref sig .tc := ⟨.hbm, 114, rfl⟩
abbrev main_call7_v1 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_14 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_c_15 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩

abbrev nD : Nat := 1
abbrev τ : Topo := Topo.v7x

variable {F : FTy → Type} [FloatOps F]

class Facts₀ : Prop where
  reducesTo_S2000000x3_S2000000_d1 : S2000000x3.ReducesTo [1] S2000000
  h_S_ : 0 < S_.numel
  bcast_S_S2000000 : S_.BroadcastsInDim S2000000 (![] : Fin 0 → Fin S2000000.rank)
  slices_S2000000x3_S2000000x1_0_0 : S2000000x3.Slices ![0, 0] S2000000x1
  shapeCasts_S2000000x1_S2000000 : S2000000x1.ShapeCasts S2000000
  slices_S2000000x3_S2000000x1_0_2 : S2000000x3.Slices ![0, 2] S2000000x1
  slices_S2000000x3_S2000000x1_0_1 : S2000000x3.Slices ![0, 1] S2000000x1
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  bcast_S2000000x3_S2000000x1x3_0_2 : S2000000x3.BroadcastsInDim S2000000x1x3 (![0, 2] : Fin 2 → Fin S2000000x1x3.rank)
  concatenates_S2000000x1x3_S2000000x1x3_S2000000x1x3_S2000000x3x3_d1 : Shape.Concatenates [S2000000x1x3, S2000000x1x3, S2000000x1x3] S2000000x3x3 1
  bcast_S_S3x3 : S_.BroadcastsInDim S3x3 (![] : Fin 0 → Fin S3x3.rank)
  bcast_S2000000_S2000000x1x1_0 : S2000000.BroadcastsInDim S2000000x1x1 (![0] : Fin 1 → Fin S2000000x1x1.rank)
  bcast_S2000000x1x1_S2000000x3x3_0_1_2 : S2000000x1x1.BroadcastsInDim S2000000x3x3 (![0, 1, 2] : Fin 3 → Fin S2000000x3x3.rank)
  bcast_S3x3_S1x3x3_1_2 : S3x3.BroadcastsInDim S1x3x3 (![1, 2] : Fin 2 → Fin S1x3x3.rank)
  bcast_S1x3x3_S2000000x3x3_0_1_2 : S1x3x3.BroadcastsInDim S2000000x3x3 (![0, 1, 2] : Fin 3 → Fin S2000000x3x3.rank)
  transposes_S2000000x3x3_S2000000x3x3_0_2_1 : S2000000x3x3.Transposes [0, 2, 1] S2000000x3x3
  bcast_S2000000x3_S2000000x3x1_0_1 : S2000000x3.BroadcastsInDim S2000000x3x1 (![0, 1] : Fin 2 → Fin S2000000x3x1.rank)
  bcast_S2000000x3x1_S2000000x3x3_0_1_2 : S2000000x3x1.BroadcastsInDim S2000000x3x3 (![0, 1, 2] : Fin 3 → Fin S2000000x3x3.rank)
  concatenates_S2000000x3x3_S2000000x3x1_S2000000x3x4_d2 : Shape.Concatenates [S2000000x3x3, S2000000x3x1] S2000000x3x4 2
  dot_S2000000x3x3_S2000000x3x3_S2000000x3x3_2_1_1_2_0_0_wf : DotDims.WF S2000000x3x3 S2000000x3x3 S2000000x3x3 [2] [1] [1] [2] [0] [0]

variable [Facts₀]

def dot_S2000000x3x3_S2000000x3x3_S2000000x3x3_2_1_1_2_0_0 : DotDims S2000000x3x3 S2000000x3x3 S2000000x3x3 where
  lhsContracting := [2]
  rhsContracting := [1]
  lhsNonContracting := [1]
  rhsNonContracting := [2]
  lhsBatch := [0]
  rhsBatch := [0]
  wf := dot_S2000000x3x3_S2000000x3x3_S2000000x3x3_2_1_1_2_0_0_wf

class Facts : Prop extends Facts₀ where

variable [Facts]
-- ==== Proof.RefRun.lean ====
import proofs.«161049_j13958643712058_1_alg».proof.Proof.ReadP
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! # The reference's run, read stretch by stretch

The reference computes, for each of 2,000,000 rows, two rotation matrices from axis-angle vectors by Rodrigues'
formula: with θ the norm of the vector, K its skew-symmetric matrix and a guard for θ near zero,
R = I + (sin θ / θ) · K + ((1 − cos θ) / θ²) · K². From R₁ (of the first vector), R₂ (of the second) and the
entrywise exponential s of a third vector it forms R₁ · (R₂ · (diag(s) · R₂ᵀ)), and joins the fourth argument to it
as a fourth column.

Its 175 operations are cut into twelve stretches, each beginning where a join of columns or rows begins, so that
a join always reads operands that an earlier stretch has already named. `valK V0` is what the device's buffers
hold after the first K stretches from contents `V0`; a lemma `valK_‹buffer›` says that a buffer still to be read
then holds its stage function of the arguments (`ReadP.val_‹buffer›`, one per operation). Each lemma unfolds its
stretch's fold, rewrites every operation's result at its own buffer to its function's value and elsewhere to what
was there, and replaces what the stretch reads from before by the earlier lemmas; the two sides then agree by
unfolding the stage functions. -/

section Stretches

/-- Operations 1 to 42: the first vector's squared norm, its root θ₁, the guarded coefficients sin θ₁ / θ₁ and (1 − cos θ₁) / θ₁², and the entries of the first row of its skew-symmetric matrix. -/
abbrev l1 : List (HloOp τ sig (Elt F)) :=
  [ binary main_arg1 main_arg1 main_v0 (mulf : (⟨S2000000x3, .f32⟩ : BufTy).Contents (Elt F) → (⟨S2000000x3, .f32⟩ : BufTy).Contents (Elt F) → (⟨S2000000x3, .f32⟩ : BufTy).Contents (Elt F)),
    nullary main_cst (constant S_ .f32 0x00000000#32),
    binary main_v0 main_cst main_v1 ((fun x v => Host.reduceAdd x v reducesTo_S2000000x3_S2000000_d1 h_S_) : (⟨S2000000x3, .f32⟩ : BufTy).Contents (Elt F) → (⟨S_, .f32⟩ : BufTy).Contents (Elt F) → (⟨S2000000, .f32⟩ : BufTy).Contents (Elt F)),
    unary main_v1 main_v2 (Host.sqrt : (⟨S2000000, .f32⟩ : BufTy).Contents (Elt F) → (⟨S2000000, .f32⟩ : BufTy).Contents (Elt F)),
    nullary main_cst_0 (constant S_ .f32 0x358637BD#32),
    unary main_cst_0 main_v3 (broadcastInDim S2000000 ![] bcast_S_S2000000 : (⟨S_, .f32⟩ : BufTy).Contents (Elt F) → (⟨S2000000, .f32⟩ : BufTy).Contents (Elt F)),
    binary main_v2 main_v3 main_v4 (cmpf .olt : (⟨S2000000, .f32⟩ : BufTy).Contents (Elt F) → (⟨S2000000, .f32⟩ : BufTy).Contents (Elt F) → (⟨S2000000, .i1⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S2000000, .f32⟩) main_call0_v1) (broadcastInDim S2000000 ![] bcast_S_S2000000),
    TRef.ternary (TRef.of (T := ⟨S2000000, .i1⟩) main_v4) (TRef.of (T := ⟨S2000000, .f32⟩) main_call0_v1) (TRef.of (T := ⟨S2000000, .f32⟩) main_v2) (TRef.of (T := ⟨S2000000, .f32⟩) main_v5) select,
    nullary main_cst_2 (constant S_ .f32 0x3F800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S2000000, .f32⟩) main_call1_v1) (broadcastInDim S2000000 ![] bcast_S_S2000000),
    TRef.ternary (TRef.of (T := ⟨S2000000, .i1⟩) main_v4) (TRef.of (T := ⟨S2000000, .f32⟩) main_call1_v1) (TRef.of (T := ⟨S2000000, .f32⟩) main_v1) (TRef.of (T := ⟨S2000000, .f32⟩) main_v6) select,
    unary main_v2 main_v7 (Host.sin : (⟨S2000000, .f32⟩ : BufTy).Contents (Elt F) → (⟨S2000000, .f32⟩ : BufTy).Contents (Elt F)),
    binary main_v7 main_v5 main_v8 (Host.divf : (⟨S2000000, .f32⟩ : BufTy).Contents (Elt F) → (⟨S2000000, .f32⟩ : BufTy).Contents (Elt F) → (⟨S2000000, .f32⟩ : BufTy).Contents (Elt F)),
    nullary main_cst_3 (constant S_ .f32 0x3F800000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S2000000, .f32⟩) main_call2_v1) (broadcastInDim S2000000 ![] bcast_S_S2000000),
    TRef.ternary (TRef.of (T := ⟨S2000000, .i1⟩) main_v4) (TRef.of (T := ⟨S2000000, .f32⟩) main_call2_v1) (TRef.of (T := ⟨S2000000, .f32⟩) main_v8) (TRef.of (T := ⟨S2000000, .f32⟩) main_v9) select,
    unary main_v2 main_v10 (Host.cos : (⟨S2000000, .f32⟩ : BufTy).Contents (Elt F) → (⟨S2000000, .f32⟩ : BufTy).Contents (Elt F)),
    nullary main_cst_4 (constant S_ .f32 0x3F800000#32),
    unary main_cst_4 main_v11 (broadcastInDim S2000000 ![] bcast_S_S2000000 : (⟨S_, .f32⟩ : BufTy).Contents (Elt F) → (⟨S2000000, .f32⟩ : BufTy).Contents (Elt F)),
    binary main_v11 main_v10 main_v12 (subf : (⟨S2000000, .f32⟩ : BufTy).Contents (Elt F) → (⟨S2000000, .f32⟩ : BufTy).Contents (Elt F) → (⟨S2000000, .f32⟩ : BufTy).Contents (Elt F)),
    binary main_v12 main_v6 main_v13 (Host.divf : (⟨S2000000, .f32⟩ : BufTy).Contents (Elt F) → (⟨S2000000, .f32⟩ : BufTy).Contents (Elt F) → (⟨S2000000, .f32⟩ : BufTy).Contents (Elt F)),
    nullary main_cst_5 (constant S_ .f32 0x3F000000#32),
    TRef.unary (TRef.of (T := ⟨S_, .f32⟩) main_cst_5) (TRef.of (T := ⟨S_, .f32⟩) main_call3_v0) id,
    TRef.unary (TRef.of (T := ⟨S_, .f32⟩) main_call3_v0) (TRef.of (T := ⟨S2000000, .f32⟩) main_call3_v1) (broadcastInDim S2000000 ![] bcast_S_S2000000),
    TRef.ternary (TRef.of (T := ⟨S2000000, .i1⟩) main_v4) (TRef.of (T := ⟨S2000000, .f32⟩) main_call3_v1) (TRef.of (T := ⟨S2000000, .f32⟩) main_v13) (TRef.of (T := ⟨S2000000, .f32⟩) main_v14) select,
    unary main_arg1 main_v15 ((extractStridedSlice S2000000x1 ![0, 0] · slices_S2000000x3_S2000000x1_0_0) : (⟨S2000000x3, .f32⟩ : BufTy).Contents (Elt F) → (⟨S2000000x1, .f32⟩ : BufTy).Contents (Elt F)),
    reshape main_v15 main_v16 rfl shapeCasts_S2000000x1_S2000000,
    nullary main_cst_6 (constant S_ .f32 0x00000000#32),
    unary main_cst_6 main_v17 (broadcastInDim S2000000 ![] bcast_S_S2000000 : (⟨S_, .f32⟩ : BufTy).Contents (Elt F) → (⟨S2000000, .f32⟩ : BufTy).Contents (Elt F)),
    unary main_arg1 main_v18 ((extractStridedSlice S2000000x1 ![0, 2] · slices_S2000000x3_S2000000x1_0_2) : (⟨S2000000x3, .f32⟩ : BufTy).Contents (Elt F) → (⟨S2000000x1, .f32⟩ : BufTy).Contents (Elt F)),
    reshape main_v18 main_v19 rfl shapeCasts_S2000000x1_S2000000,
    unary main_v19 main_v20 (Host.negf : (⟨S2000000, .f32⟩ : BufTy).Contents (Elt F) → (⟨S2000000, .f32⟩ : BufTy).Contents (Elt F)),
    unary main_arg1 main_v21 ((extractStridedSlice S2000000x1 ![0, 1] · slices_S2000000x3_S2000000x1_0_1) : (⟨S2000000x3, .f32⟩ : BufTy).Contents (Elt F) → (⟨S2000000x1, .f32⟩ : BufTy).Contents (Elt F)),
    reshape main_v21 main_v22 rfl shapeCasts_S2000000x1_S2000000,
    unary main_v17 main_v23 (broadcastInDim S2000000x1 ![0] bcast_S2000000_S2000000x1_0 : (⟨S2000000, .f32⟩ : BufTy).Contents (Elt F) → (⟨S2000000x1, .f32⟩ : BufTy).Contents (Elt F)),
    unary main_v20 main_v24 (broadcastInDim S2000000x1 ![0] bcast_S2000000_S2000000x1_0 : (⟨S2000000, .f32⟩ : BufTy).Contents (Elt F) → (⟨S2000000x1, .f32⟩ : BufTy).Contents (Elt F)),
    unary main_v22 main_v25 (broadcastInDim S2000000x1 ![0] bcast_S2000000_S2000000x1_0 : (⟨S2000000, .f32⟩ : BufTy).Contents (Elt F) → (⟨S2000000x1, .f32⟩ : BufTy).Contents (Elt F)) ]

/-- Operations 43 to 51: the first row joined, and the entries of the second row. -/
abbrev l2 : List (HloOp τ sig (Elt F)) :=
  [ nary ![main_v23, main_v24, main_v25] main_v26 (fun u => concatenate S2000000x3 1 [⟨S2000000x1, u 0⟩, ⟨S2000000x1, u 1⟩, ⟨S2000000x1, u 2⟩] concatenates_S2000000x1_S2000000x1_S2000000x1_S2000000x3_d1),
    unary main_arg1 main_v27 ((extractStridedSlice S2000000x1 ![0, 2] · slices_S2000000x3_S2000000x1_0_2) : (⟨S2000000x3, .f32⟩ : BufTy).Contents (Elt F) → (⟨S2000000x1, .f32⟩ : BufTy).Contents (Elt F)),
    reshape main_v27 main_v28 rfl shapeCasts_S2000000x1_S2000000,
    unary main_arg1 main_v29 ((extractStridedSlice S2000000x1 ![0, 0] · slices_S2000000x3_S2000000x1_0_0) : (⟨S2000000x3, .f32⟩ : BufTy).Contents (Elt F) → (⟨S2000000x1, .f32⟩ : BufTy).Contents (Elt F)),
    reshape main_v29 main_v30 rfl shapeCasts_S2000000x1_S2000000,
    unary main_v30 main_v31 (Host.negf : (⟨S2000000, .f32⟩ : BufTy).Contents (Elt F) → (⟨S2000000, .f32⟩ : BufTy).Contents (Elt F)),
    unary main_v28 main_v32 (broadcastInDim S2000000x1 ![0] bcast_S2000000_S2000000x1_0 : (⟨S2000000, .f32⟩ : BufTy).Contents (Elt F) → (⟨S2000000x1, .f32⟩ : BufTy).Contents (Elt F)),
    unary main_v17 main_v33 (broadcastInDim S2000000x1 ![0] bcast_S2000000_S2000000x1_0 : (⟨S2000000, .f32⟩ : BufTy).Contents (Elt F) → (⟨S2000000x1, .f32⟩ : BufTy).Contents (Elt F)),
    unary main_v31 main_v34 (broadcastInDim S2000000x1 ![0] bcast_S2000000_S2000000x1_0 : (⟨S2000000, .f32⟩ : BufTy).Contents (Elt F) → (⟨S2000000x1, .f32⟩ : BufTy).Contents (Elt F)) ]

/-- Operations 52 to 60: the second row joined, and the entries of the third row. -/
abbrev l3 : List (HloOp τ sig (Elt F)) :=
  [ nary ![main_v32, main_v33, main_v34] main_v35 (fun u => concatenate S2000000x3 1 [⟨S2000000x1, u 0⟩, ⟨S2000000x1, u 1⟩, ⟨S2000000x1, u 2⟩] concatenates_S2000000x1_S2000000x1_S2000000x1_S2000000x3_d1),
    unary main_arg1 main_v36 ((extractStridedSlice S2000000x1 ![0, 1] · slices_S2000000x3_S2000000x1_0_1) : (⟨S2000000x3, .f32⟩ : BufTy).Contents (Elt F) → (⟨S2000000x1, .f32⟩ : BufTy).Contents (Elt F)),
    reshape main_v36 main_v37 rfl shapeCasts_S2000000x1_S2000000,
    unary main_v37 main_v38 (Host.negf : (⟨S2000000, .f32⟩ : BufTy).Contents (Elt F) → (⟨S2000000, .f32⟩ : BufTy).Contents (Elt F)),
    unary main_arg1 main_v39 ((extractStridedSlice S2000000x1 ![0, 0] · slices_S2000000x3_S2000000x1_0_0) : (⟨S2000000x3, .f32⟩ : BufTy).Contents (Elt F) → (⟨S2000000x1, .f32⟩ : BufTy).Contents (Elt F)),
    reshape main_v39 main_v40 rfl shapeCasts_S2000000x1_S2000000,
    unary main_v38 main_v41 (broadcastInDim S2000000x1 ![0] bcast_S2000000_S2000000x1_0 : (⟨S2000000, .f32⟩ : BufTy).Contents (Elt F) → (⟨S2000000x1, .f32⟩ : BufTy).Contents (Elt F)),
    unary main_v40 main_v42 (broadcastInDim S2000000x1 ![0] bcast_S2000000_S2000000x1_0 : (⟨S2000000, .f32⟩ : BufTy).Contents (Elt F) → (⟨S2000000x1, .f32⟩ : BufTy).Contents (Elt F)),
    unary main_v17 main_v43 (broadcastInDim S2000000x1 ![0] bcast_S2000000_S2000000x1_0 : (⟨S2000000, .f32⟩ : BufTy).Contents (Elt F) → (⟨S2000000x1, .f32⟩ : BufTy).Contents (Elt F)) ]

/-- Operations 61 to 64: the third row joined, and each row given a unit middle axis. -/
abbrev l4 : List (HloOp τ sig (Elt F)) :=
  [ nary ![main_v41, main_v42, main_v43] main_v44 (fun u => concatenate S2000000x3 1 [⟨S2000000x1, u 0⟩, ⟨S2000000x1, u 1⟩, ⟨S2000000x1, u 2⟩] concatenates_S2000000x1_S2000000x1_S2000000x1_S2000000x3_d1),
    unary main_v26 main_v45 (broadcastInDim S2000000x1x3 ![0, 2] bcast_S2000000x3_S2000000x1x3_0_2 : (⟨S2000000x3, .f32⟩ : BufTy).Contents (Elt F) → (⟨S2000000x1x3, .f32⟩ : BufTy).Contents (Elt F)),
    unary main_v35 main_v46 (broadcastInDim S2000000x1x3 ![0, 2] bcast_S2000000x3_S2000000x1x3_0_2 : (⟨S2000000x3, .f32⟩ : BufTy).Contents (Elt F) → (⟨S2000000x1x3, .f32⟩ : BufTy).Contents (Elt F)),
    unary main_v44 main_v47 (broadcastInDim S2000000x1x3 ![0, 2] bcast_S2000000x3_S2000000x1x3_0_2 : (⟨S2000000x3, .f32⟩ : BufTy).Contents (Elt F) → (⟨S2000000x1x3, .f32⟩ : BufTy).Contents (Elt F)) ]

/-- Operations 65 to 68: the three rows joined into K₁, and the row and column indices of a 3 × 3 array. -/
abbrev l5 : List (HloOp τ sig (Elt F)) :=
  [ nary ![main_v45, main_v46, main_v47] main_v48 (fun u => concatenate S2000000x3x3 1 [⟨S2000000x1x3, u 0⟩, ⟨S2000000x1x3, u 1⟩, ⟨S2000000x1x3, u 2⟩] concatenates_S2000000x1x3_S2000000x1x3_S2000000x1x3_S2000000x3x3_d1),
    nullary main_v49 (iotaInDim S3x3 32 0),
    nullary main_v50 (iotaInDim S3x3 32 1),
    nullary main_c (constantI S_ 32 0#32) ]

/-- Operations 69 to 125: the identity matrix, R₁ = I + (sin θ₁ / θ₁) · K₁ + ((1 − cos θ₁) / θ₁²) · K₁², then for the second vector its norm θ₂, its two guarded coefficients and the entries of the first row of its skew-symmetric matrix. -/
abbrev l6 : List (HloOp τ sig (Elt F)) :=
  [ unary main_c main_v51 (broadcastInDim S3x3 ![] bcast_S_S3x3 : (⟨S_, .i32⟩ : BufTy).Contents (Elt F) → (⟨S3x3, .i32⟩ : BufTy).Contents (Elt F)),
    binary main_v49 main_v51 main_v52 (addi : (⟨S3x3, .i32⟩ : BufTy).Contents (Elt F) → (⟨S3x3, .i32⟩ : BufTy).Contents (Elt F) → (⟨S3x3, .i32⟩ : BufTy).Contents (Elt F)),
    binary main_v52 main_v50 main_v53 (cmpi .eq : (⟨S3x3, .i32⟩ : BufTy).Contents (Elt F) → (⟨S3x3, .i32⟩ : BufTy).Contents (Elt F) → (⟨S3x3, .i1⟩ : BufTy).Contents (Elt F)),
    unary main_v53 main_v54 (uitofp .f32 : (⟨S3x3, .i1⟩ : BufTy).Contents (Elt F) → (⟨S3x3, .f32⟩ : BufTy).Contents (Elt F)),
    unary main_v9 main_v55 (broadcastInDim S2000000x1x1 ![0] bcast_S2000000_S2000000x1x1_0 : (⟨S2000000, .f32⟩ : BufTy).Contents (Elt F) → (⟨S2000000x1x1, .f32⟩ : BufTy).Contents (Elt F)),
    unary main_v55 main_v56 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    binary main_v56 main_v48 main_v57 (mulf : (⟨S2000000x3x3, .f32⟩ : BufTy).Contents (Elt F) → (⟨S2000000x3x3, .f32⟩ : BufTy).Contents (Elt F) → (⟨S2000000x3x3, .f32⟩ : BufTy).Contents (Elt F)),
    unary main_v54 main_v58 (broadcastInDim S1x3x3 ![1, 2] bcast_S3x3_S1x3x3_1_2 : (⟨S3x3, .f32⟩ : BufTy).Contents (Elt F) → (⟨S1x3x3, .f32⟩ : BufTy).Contents (Elt F)),
    unary main_v58 main_v59 (broadcastInDim S2000000x3x3 ![0, 1, 2] bcast_S1x3x3_S2000000x3x3_0_1_2 : (⟨S1x3x3, .f32⟩ : BufTy).Contents (Elt F) → (⟨S2000000x3x3, .f32⟩ : BufTy).Contents (Elt F)),
    binary main_v59 main_v57 main_v60 (addf : (⟨S2000000x3x3, .f32⟩ : BufTy).Contents (Elt F) → (⟨S2000000x3x3, .f32⟩ : BufTy).Contents (Elt F) → (⟨S2000000x3x3, .f32⟩ : BufTy).Contents (Elt F)),
    unary main_v14 main_v61 (broadcastInDim S2000000x1x1 ![0] bcast_S2000000_S2000000x1x1_0 : (⟨S2000000, .f32⟩ : BufTy).Contents (Elt F) → (⟨S2000000x1x1, .f32⟩ : BufTy).Contents (Elt F)),
    binary main_v48 main_v48 main_v62 ((fun l r => Host.dotGeneral dot_S2000000x3x3_S2000000x3x3_S2000000x3x3_2_1_1_2_0_0 none l r) : (⟨S2000000x3x3, .f32⟩ : BufTy).Contents (Elt F) → (⟨S2000000x3x3, .f32⟩ : BufTy).Contents (Elt F) → (⟨S2000000x3x3, .f32⟩ : BufTy).Contents (Elt F)),
    unary main_v61 main_v63 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    binary main_v63 main_v62 main_v64 (mulf : (⟨S2000000x3x3, .f32⟩ : BufTy).Contents (Elt F) → (⟨S2000000x3x3, .f32⟩ : BufTy).Contents (Elt F) → (⟨S2000000x3x3, .f32⟩ : BufTy).Contents (Elt F)),
    binary main_v60 main_v64 main_v65 (addf : (⟨S2000000x3x3, .f32⟩ : BufTy).Contents (Elt F) → (⟨S2000000x3x3, .f32⟩ : BufTy).Contents (Elt F) → (⟨S2000000x3x3, .f32⟩ : BufTy).Contents (Elt F)),
    binary main_arg2 main_arg2 main_v66 (mulf : (⟨S2000000x3, .f32⟩ : BufTy).Contents (Elt F) → (⟨S2000000x3, .f32⟩ : BufTy).Contents (Elt F) → (⟨S2000000x3, .f32⟩ : BufTy).Contents (Elt F)),
    nullary main_cst_7 (constant S_ .f32 0x00000000#32),
    binary main_v66 main_cst_7 main_v67 ((fun x v => Host.reduceAdd x v reducesTo_S2000000x3_S2000000_d1 h_S_) : (⟨S2000000x3, .f32⟩ : BufTy).Contents (Elt F) → (⟨S_, .f32⟩ : BufTy).Contents (Elt F) → (⟨S2000000, .f32⟩ : BufTy).Contents (Elt F)),
    unary main_v67 main_v68 (Host.sqrt : (⟨S2000000, .f32⟩ : BufTy).Contents (Elt F) → (⟨S2000000, .f32⟩ : BufTy).Contents (Elt F)),
    nullary main_cst_8 (constant S_ .f32 0x358637BD#32),
    unary main_cst_8 main_v69 (broadcastInDim S2000000 ![] bcast_S_S2000000 : (⟨S_, .f32⟩ : BufTy).Contents (Elt F) → (⟨S2000000, .f32⟩ : BufTy).Contents (Elt F)),
    binary main_v68 main_v69 main_v70 (cmpf .olt : (⟨S2000000, .f32⟩ : BufTy).Contents (Elt F) → (⟨S2000000, .f32⟩ : BufTy).Contents (Elt F) → (⟨S2000000, .i1⟩ : BufTy).Contents (Elt F)),
    nullary main_cst_9 (constant S_ .f32 0x3F800000#32),
    TRef.unary (TRef.of (T := ⟨S_, .f32⟩) main_cst_9) (TRef.of (T := ⟨S_, .f32⟩) main_call4_v0) id,
    TRef.unary (TRef.of (T := ⟨S_, .f32⟩) main_call4_v0) (TRef.of (T := ⟨S2000000, .f32⟩) main_call4_v1) (broadcastInDim S2000000 ![] bcast_S_S2000000),
    TRef.ternary (TRef.of (T := ⟨S2000000, .i1⟩) main_v70) (TRef.of (T := ⟨S2000000, .f32⟩) main_call4_v1) (TRef.of (T := ⟨S2000000, .f32⟩) main_v68) (TRef.of (T := ⟨S2000000, .f32⟩) main_v71) select,
    nullary main_cst_10 (constant S_ .f32 0x3F800000#32),
    TRef.unary (TRef.of (T := ⟨S_, .f32⟩) main_cst_10) (TRef.of (T := ⟨S_, .f32⟩) main_call5_v0) id,
    TRef.unary (TRef.of (T := ⟨S_, .f32⟩) main_call5_v0) (TRef.of (T := ⟨S2000000, .f32⟩) main_call5_v1) (broadcastInDim S2000000 ![] bcast_S_S2000000),
    TRef.ternary (TRef.of (T := ⟨S2000000, .i1⟩) main_v70) (TRef.of (T := ⟨S2000000, .f32⟩) main_call5_v1) (TRef.of (T := ⟨S2000000, .f32⟩) main_v67) (TRef.of (T := ⟨S2000000, .f32⟩) main_v72) select,
    unary main_v68 main_v73 (Host.sin : (⟨S2000000, .f32⟩ : BufTy).Contents (Elt F) → (⟨S2000000, .f32⟩ : BufTy).Contents (Elt F)),
    binary main_v73 main_v71 main_v74 (Host.divf : (⟨S2000000, .f32⟩ : BufTy).Contents (Elt F) → (⟨S2000000, .f32⟩ : BufTy).Contents (Elt F) → (⟨S2000000, .f32⟩ : BufTy).Contents (Elt F)),
    nullary main_cst_11 (constant S_ .f32 0x3F800000#32),
    TRef.unary (TRef.of (T := ⟨S_, .f32⟩) main_cst_11) (TRef.of (T := ⟨S_, .f32⟩) main_call6_v0) id,
    TRef.unary (TRef.of (T := ⟨S_, .f32⟩) main_call6_v0) (TRef.of (T := ⟨S2000000, .f32⟩) main_call6_v1) (broadcastInDim S2000000 ![] bcast_S_S2000000),
    TRef.ternary (TRef.of (T := ⟨S2000000, .i1⟩) main_v70) (TRef.of (T := ⟨S2000000, .f32⟩) main_call6_v1) (TRef.of (T := ⟨S2000000, .f32⟩) main_v74) (TRef.of (T := ⟨S2000000, .f32⟩) main_v75) select,
    unary main_v68 main_v76 (Host.cos : (⟨S2000000, .f32⟩ : BufTy).Contents (Elt F) → (⟨S2000000, .f32⟩ : BufTy).Contents (Elt F)),
    nullary main_cst_12 (constant S_ .f32 0x3F800000#32),
    unary main_cst_12 main_v77 (broadcastInDim S2000000 ![] bcast_S_S2000000 : (⟨S_, .f32⟩ : BufTy).Contents (Elt F) → (⟨S2000000, .f32⟩ : BufTy).Contents (Elt F)),
    binary main_v77 main_v76 main_v78 (subf : (⟨S2000000, .f32⟩ : BufTy).Contents (Elt F) → (⟨S2000000, .f32⟩ : BufTy).Contents (Elt F) → (⟨S2000000, .f32⟩ : BufTy).Contents (Elt F)),
    binary main_v78 main_v72 main_v79 (Host.divf : (⟨S2000000, .f32⟩ : BufTy).Contents (Elt F) → (⟨S2000000, .f32⟩ : BufTy).Contents (Elt F) → (⟨S2000000, .f32⟩ : BufTy).Contents (Elt F)),
    nullary main_cst_13 (constant S_ .f32 0x3F000000#32),
    TRef.unary (TRef.of (T := ⟨S_, .f32⟩) main_cst_13) (TRef.of (T := ⟨S_, .f32⟩) main_call7_v0) id,
    TRef.unary (TRef.of (T := ⟨S_, .f32⟩) main_call7_v0) (TRef.of (T := ⟨S2000000, .f32⟩) main_call7_v1) (broadcastInDim S2000000 ![] bcast_S_S2000000),
    TRef.ternary (TRef.of (T := ⟨S2000000, .i1⟩) main_v70) (TRef.of (T := ⟨S2000000, .f32⟩) main_call7_v1) (TRef.of (T := ⟨S2000000, .f32⟩) main_v79) (TRef.of (T := ⟨S2000000, .f32⟩) main_v80) select,
    unary main_arg2 main_v81 ((extractStridedSlice S2000000x1 ![0, 0] · slices_S2000000x3_S2000000x1_0_0) : (⟨S2000000x3, .f32⟩ : BufTy).Contents (Elt F) → (⟨S2000000x1, .f32⟩ : BufTy).Contents (Elt F)),
    reshape main_v81 main_v82 rfl shapeCasts_S2000000x1_S2000000,
    nullary main_cst_14 (constant S_ .f32 0x00000000#32),
    unary main_cst_14 main_v83 (broadcastInDim S2000000 ![] bcast_S_S2000000 : (⟨S_, .f32⟩ : BufTy).Contents (Elt F) → (⟨S2000000, .f32⟩ : BufTy).Contents (Elt F)),
    unary main_arg2 main_v84 ((extractStridedSlice S2000000x1 ![0, 2] · slices_S2000000x3_S2000000x1_0_2) : (⟨S2000000x3, .f32⟩ : BufTy).Contents (Elt F) → (⟨S2000000x1, .f32⟩ : BufTy).Contents (Elt F)),
    reshape main_v84 main_v85 rfl shapeCasts_S2000000x1_S2000000,
    unary main_v85 main_v86 (Host.negf : (⟨S2000000, .f32⟩ : BufTy).Contents (Elt F) → (⟨S2000000, .f32⟩ : BufTy).Contents (Elt F)),
    unary main_arg2 main_v87 ((extractStridedSlice S2000000x1 ![0, 1] · slices_S2000000x3_S2000000x1_0_1) : (⟨S2000000x3, .f32⟩ : BufTy).Contents (Elt F) → (⟨S2000000x1, .f32⟩ : BufTy).Contents (Elt F)),
    reshape main_v87 main_v88 rfl shapeCasts_S2000000x1_S2000000,
    unary main_v83 main_v89 (broadcastInDim S2000000x1 ![0] bcast_S2000000_S2000000x1_0 : (⟨S2000000, .f32⟩ : BufTy).Contents (Elt F) → (⟨S2000000x1, .f32⟩ : BufTy).Contents (Elt F)),
    unary main_v86 main_v90 (broadcastInDim S2000000x1 ![0] bcast_S2000000_S2000000x1_0 : (⟨S2000000, .f32⟩ : BufTy).Contents (Elt F) → (⟨S2000000x1, .f32⟩ : BufTy).Contents (Elt F)),
    unary main_v88 main_v91 (broadcastInDim S2000000x1 ![0] bcast_S2000000_S2000000x1_0 : (⟨S2000000, .f32⟩ : BufTy).Contents (Elt F) → (⟨S2000000x1, .f32⟩ : BufTy).Contents (Elt F)) ]

/-- Operations 126 to 134: the first row joined, and the entries of the second row. -/
abbrev l7 : List (HloOp τ sig (Elt F)) :=
  [ nary ![main_v89, main_v90, main_v91] main_v92 (fun u => concatenate S2000000x3 1 [⟨S2000000x1, u 0⟩, ⟨S2000000x1, u 1⟩, ⟨S2000000x1, u 2⟩] concatenates_S2000000x1_S2000000x1_S2000000x1_S2000000x3_d1),
    unary main_arg2 main_v93 ((extractStridedSlice S2000000x1 ![0, 2] · slices_S2000000x3_S2000000x1_0_2) : (⟨S2000000x3, .f32⟩ : BufTy).Contents (Elt F) → (⟨S2000000x1, .f32⟩ : BufTy).Contents (Elt F)),
    reshape main_v93 main_v94 rfl shapeCasts_S2000000x1_S2000000,
    unary main_arg2 main_v95 ((extractStridedSlice S2000000x1 ![0, 0] · slices_S2000000x3_S2000000x1_0_0) : (⟨S2000000x3, .f32⟩ : BufTy).Contents (Elt F) → (⟨S2000000x1, .f32⟩ : BufTy).Contents (Elt F)),
    reshape main_v95 main_v96 rfl shapeCasts_S2000000x1_S2000000,
    unary main_v96 main_v97 (Host.negf : (⟨S2000000, .f32⟩ : BufTy).Contents (Elt F) → (⟨S2000000, .f32⟩ : BufTy).Contents (Elt F)),
    unary main_v94 main_v98 (broadcastInDim S2000000x1 ![0] bcast_S2000000_S2000000x1_0 : (⟨S2000000, .f32⟩ : BufTy).Contents (Elt F) → (⟨S2000000x1, .f32⟩ : BufTy).Contents (Elt F)),
    unary main_v83 main_v99 (broadcastInDim S2000000x1 ![0] bcast_S2000000_S2000000x1_0 : (⟨S2000000, .f32⟩ : BufTy).Contents (Elt F) → (⟨S2000000x1, .f32⟩ : BufTy).Contents (Elt F)),
    unary main_v97 main_v100 (broadcastInDim S2000000x1 ![0] bcast_S2000000_S2000000x1_0 : (⟨S2000000, .f32⟩ : BufTy).Contents (Elt F) → (⟨S2000000x1, .f32⟩ : BufTy).Contents (Elt F)) ]

/-- Operations 135 and 136: the second row joined, and the first entry of the third row sliced out. -/
abbrev l8 : List (HloOp τ sig (Elt F)) :=
  [ nary ![main_v98, main_v99, main_v100] main_v101 (fun u => concatenate S2000000x3 1 [⟨S2000000x1, u 0⟩, ⟨S2000000x1, u 1⟩, ⟨S2000000x1, u 2⟩] concatenates_S2000000x1_S2000000x1_S2000000x1_S2000000x3_d1),
    unary main_arg2 main_v102 ((extractStridedSlice S2000000x1 ![0, 1] · slices_S2000000x3_S2000000x1_0_1) : (⟨S2000000x3, .f32⟩ : BufTy).Contents (Elt F) → (⟨S2000000x1, .f32⟩ : BufTy).Contents (Elt F)) ]

/-- Operations 137 to 143: the entries of the third row. -/
abbrev l9 : List (HloOp τ sig (Elt F)) :=
  [ reshape main_v102 main_v103 rfl shapeCasts_S2000000x1_S2000000,
    unary main_v103 main_v104 (Host.negf : (⟨S2000000, .f32⟩ : BufTy).Contents (Elt F) → (⟨S2000000, .f32⟩ : BufTy).Contents (Elt F)),
    unary main_arg2 main_v105 ((extractStridedSlice S2000000x1 ![0, 0] · slices_S2000000x3_S2000000x1_0_0) : (⟨S2000000x3, .f32⟩ : BufTy).Contents (Elt F) → (⟨S2000000x1, .f32⟩ : BufTy).Contents (Elt F)),
    reshape main_v105 main_v106 rfl shapeCasts_S2000000x1_S2000000,
    unary main_v104 main_v107 (broadcastInDim S2000000x1 ![0] bcast_S2000000_S2000000x1_0 : (⟨S2000000, .f32⟩ : BufTy).Contents (Elt F) → (⟨S2000000x1, .f32⟩ : BufTy).Contents (Elt F)),
    unary main_v106 main_v108 (broadcastInDim S2000000x1 ![0] bcast_S2000000_S2000000x1_0 : (⟨S2000000, .f32⟩ : BufTy).Contents (Elt F) → (⟨S2000000x1, .f32⟩ : BufTy).Contents (Elt F)),
    unary main_v83 main_v109 (broadcastInDim S2000000x1 ![0] bcast_S2000000_S2000000x1_0 : (⟨S2000000, .f32⟩ : BufTy).Contents (Elt F) → (⟨S2000000x1, .f32⟩ : BufTy).Contents (Elt F)) ]

/-- Operations 144 to 147: the third row joined, and each row given a unit middle axis. -/
abbrev l10 : List (HloOp τ sig (Elt F)) :=
  [ nary ![main_v107, main_v108, main_v109] main_v110 (fun u => concatenate S2000000x3 1 [⟨S2000000x1, u 0⟩, ⟨S2000000x1, u 1⟩, ⟨S2000000x1, u 2⟩] concatenates_S2000000x1_S2000000x1_S2000000x1_S2000000x3_d1),
    unary main_v92 main_v111 (broadcastInDim S2000000x1x3 ![0, 2] bcast_S2000000x3_S2000000x1x3_0_2 : (⟨S2000000x3, .f32⟩ : BufTy).Contents (Elt F) → (⟨S2000000x1x3, .f32⟩ : BufTy).Contents (Elt F)),
    unary main_v101 main_v112 (broadcastInDim S2000000x1x3 ![0, 2] bcast_S2000000x3_S2000000x1x3_0_2 : (⟨S2000000x3, .f32⟩ : BufTy).Contents (Elt F) → (⟨S2000000x1x3, .f32⟩ : BufTy).Contents (Elt F)),
    unary main_v110 main_v113 (broadcastInDim S2000000x1x3 ![0, 2] bcast_S2000000x3_S2000000x1x3_0_2 : (⟨S2000000x3, .f32⟩ : BufTy).Contents (Elt F) → (⟨S2000000x1x3, .f32⟩ : BufTy).Contents (Elt F)) ]

/-- Operations 148 to 174: the three rows joined into K₂, R₂ = I + (sin θ₂ / θ₂) · K₂ + ((1 − cos θ₂) / θ₂²) · K₂², the scaled transpose diag(s) · R₂ᵀ with s the exponential of the third vector, the products R₂ · (diag(s) · R₂ᵀ) and R₁ · (R₂ · (diag(s) · R₂ᵀ)), and the fourth argument given a unit last axis. -/
abbrev l11 : List (HloOp τ sig (Elt F)) :=
  [ nary ![main_v111, main_v112, main_v113] main_v114 (fun u => concatenate S2000000x3x3 1 [⟨S2000000x1x3, u 0⟩, ⟨S2000000x1x3, u 1⟩, ⟨S2000000x1x3, u 2⟩] concatenates_S2000000x1x3_S2000000x1x3_S2000000x1x3_S2000000x3x3_d1),
    nullary main_v115 (iotaInDim S3x3 32 0),
    nullary main_v116 (iotaInDim S3x3 32 1),
    nullary main_c_15 (constantI S_ 32 0#32),
    unary main_c_15 main_v117 (broadcastInDim S3x3 ![] bcast_S_S3x3 : (⟨S_, .i32⟩ : BufTy).Contents (Elt F) → (⟨S3x3, .i32⟩ : BufTy).Contents (Elt F)),
    binary main_v115 main_v117 main_v118 (addi : (⟨S3x3, .i32⟩ : BufTy).Contents (Elt F) → (⟨S3x3, .i32⟩ : BufTy).Contents (Elt F) → (⟨S3x3, .i32⟩ : BufTy).Contents (Elt F)),
    binary main_v118 main_v116 main_v119 (cmpi .eq : (⟨S3x3, .i32⟩ : BufTy).Contents (Elt F) → (⟨S3x3, .i32⟩ : BufTy).Contents (Elt F) → (⟨S3x3, .i1⟩ : BufTy).Contents (Elt F)),
    unary main_v119 main_v120 (uitofp .f32 : (⟨S3x3, .i1⟩ : BufTy).Contents (Elt F) → (⟨S3x3, .f32⟩ : BufTy).Contents (Elt F)),
    unary main_v75 main_v121 (broadcastInDim S2000000x1x1 ![0] bcast_S2000000_S2000000x1x1_0 : (⟨S2000000, .f32⟩ : BufTy).Contents (Elt F) → (⟨S2000000x1x1, .f32⟩ : BufTy).Contents (Elt F)),
    unary main_v121 main_v122 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    binary main_v122 main_v114 main_v123 (mulf : (⟨S2000000x3x3, .f32⟩ : BufTy).Contents (Elt F) → (⟨S2000000x3x3, .f32⟩ : BufTy).Contents (Elt F) → (⟨S2000000x3x3, .f32⟩ : BufTy).Contents (Elt F)),
    unary main_v120 main_v124 (broadcastInDim S1x3x3 ![1, 2] bcast_S3x3_S1x3x3_1_2 : (⟨S3x3, .f32⟩ : BufTy).Contents (Elt F) → (⟨S1x3x3, .f32⟩ : BufTy).Contents (Elt F)),
    unary main_v124 main_v125 (broadcastInDim S2000000x3x3 ![0, 1, 2] bcast_S1x3x3_S2000000x3x3_0_1_2 : (⟨S1x3x3, .f32⟩ : BufTy).Contents (Elt F) → (⟨S2000000x3x3, .f32⟩ : BufTy).Contents (Elt F)),
    binary main_v125 main_v123 main_v126 (addf : (⟨S2000000x3x3, .f32⟩ : BufTy).Contents (Elt F) → (⟨S2000000x3x3, .f32⟩ : BufTy).Contents (Elt F) → (⟨S2000000x3x3, .f32⟩ : BufTy).Contents (Elt F)),
    unary main_v80 main_v127 (broadcastInDim S2000000x1x1 ![0] bcast_S2000000_S2000000x1x1_0 : (⟨S2000000, .f32⟩ : BufTy).Contents (Elt F) → (⟨S2000000x1x1, .f32⟩ : BufTy).Contents (Elt F)),
    binary main_v114 main_v114 main_v128 ((fun l r => Host.dotGeneral dot_S2000000x3x3_S2000000x3x3_S2000000x3x3_2_1_1_2_0_0 none l r) : (⟨S2000000x3x3, .f32⟩ : BufTy).Contents (Elt F) → (⟨S2000000x3x3, .f32⟩ : BufTy).Contents (Elt F) → (⟨S2000000x3x3, .f32⟩ : BufTy).Contents (Elt F)),
    unary main_v127 main_v129 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    binary main_v129 main_v128 main_v130 (mulf : (⟨S2000000x3x3, .f32⟩ : BufTy).Contents (Elt F) → (⟨S2000000x3x3, .f32⟩ : BufTy).Contents (Elt F) → (⟨S2000000x3x3, .f32⟩ : BufTy).Contents (Elt F)),
    binary main_v126 main_v130 main_v131 (addf : (⟨S2000000x3x3, .f32⟩ : BufTy).Contents (Elt F) → (⟨S2000000x3x3, .f32⟩ : BufTy).Contents (Elt F) → (⟨S2000000x3x3, .f32⟩ : BufTy).Contents (Elt F)),
    unary main_arg3 main_v132 (Host.exp : (⟨S2000000x3, .f32⟩ : BufTy).Contents (Elt F) → (⟨S2000000x3, .f32⟩ : BufTy).Contents (Elt F)),
    unary main_v131 main_v133 ((transpose S2000000x3x3 [0, 2, 1] · transposes_S2000000x3x3_S2000000x3x3_0_2_1) : (⟨S2000000x3x3, .f32⟩ : BufTy).Contents (Elt F) → (⟨S2000000x3x3, .f32⟩ : BufTy).Contents (Elt F)),
    unary main_v132 main_v134 (broadcastInDim S2000000x3x1 ![0, 1] bcast_S2000000x3_S2000000x3x1_0_1 : (⟨S2000000x3, .f32⟩ : BufTy).Contents (Elt F) → (⟨S2000000x3x1, .f32⟩ : BufTy).Contents (Elt F)),
    unary main_v134 main_v135 (broadcastInDim S2000000x3x3 ![0, 1, 2] bcast_S2000000x3x1_S2000000x3x3_0_1_2 : (⟨S2000000x3x1, .f32⟩ : BufTy).Contents (Elt F) → (⟨S2000000x3x3, .f32⟩ : BufTy).Contents (Elt F)),
    binary main_v135 main_v133 main_v136 (mulf : (⟨S2000000x3x3, .f32⟩ : BufTy).Contents (Elt F) → (⟨S2000000x3x3, .f32⟩ : BufTy).Contents (Elt F) → (⟨S2000000x3x3, .f32⟩ : BufTy).Contents (Elt F)),
    binary main_v131 main_v136 main_v137 ((fun l r => Host.dotGeneral dot_S2000000x3x3_S2000000x3x3_S2000000x3x3_2_1_1_2_0_0 none l r) : (⟨S2000000x3x3, .f32⟩ : BufTy).Contents (Elt F) → (⟨S2000000x3x3, .f32⟩ : BufTy).Contents (Elt F) → (⟨S2000000x3x3, .f32⟩ : BufTy).Contents (Elt F)),
    binary main_v65 main_v137 main_v138 ((fun l r => Host.dotGeneral dot_S2000000x3x3_S2000000x3x3_S2000000x3x3_2_1_1_2_0_0 none l r) : (⟨S2000000x3x3, .f32⟩ : BufTy).Contents (Elt F) → (⟨S2000000x3x3, .f32⟩ : BufTy).Contents (Elt F) → (⟨S2000000x3x3, .f32⟩ : BufTy).Contents (Elt F)),
    unary main_arg0 main_v139 (broadcastInDim S2000000x3x1 ![0, 1] bcast_S2000000x3_S2000000x3x1_0_1 : (⟨S2000000x3, .f32⟩ : BufTy).Contents (Elt F) → (⟨S2000000x3x1, .f32⟩ : BufTy).Contents (Elt F)) ]

/-- Operation 175: the fourth argument joined to the product as a fourth column. -/
abbrev l12 : List (HloOp τ sig (Elt F)) :=
  [ binary main_v138 main_v139 main_v140 ((fun a b => concatenate S2000000x3x4 2 [⟨S2000000x3x3, a⟩, ⟨S2000000x3x1, b⟩] concatenates_S2000000x3x3_S2000000x3x1_S2000000x3x4_d2) : (⟨S2000000x3x3, .f32⟩ : BufTy).Contents (Elt F) → (⟨S2000000x3x1, .f32⟩ : BufTy).Contents (Elt F) → (⟨S2000000x3x4, .f32⟩ : BufTy).Contents (Elt F)) ]

end Stretches

/-! ## The contents after each stretch -/

section Values

variable (V0 : Valuation τ sig (Elt F))

/-- The device's buffer contents after the first stretch. -/
def val1 : Valuation τ sig (Elt F) := after l1 V0
/-- The device's buffer contents after the first two stretches. -/
def val2 : Valuation τ sig (Elt F) := after l2 (val1 V0)
/-- After the first three stretches. -/
def val3 : Valuation τ sig (Elt F) := after l3 (val2 V0)
/-- After the first four stretches. -/
def val4 : Valuation τ sig (Elt F) := after l4 (val3 V0)
/-- After the first five stretches. -/
def val5 : Valuation τ sig (Elt F) := after l5 (val4 V0)
/-- After the first six stretches. -/
def val6 : Valuation τ sig (Elt F) := after l6 (val5 V0)
/-- After the first seven stretches. -/
def val7 : Valuation τ sig (Elt F) := after l7 (val6 V0)
/-- After the first eight stretches. -/
def val8 : Valuation τ sig (Elt F) := after l8 (val7 V0)
/-- After the first nine stretches. -/
def val9 : Valuation τ sig (Elt F) := after l9 (val8 V0)
/-- After the first ten stretches. -/
def val10 : Valuation τ sig (Elt F) := after l10 (val9 V0)
/-- After the first eleven stretches. -/
def val11 : Valuation τ sig (Elt F) := after l11 (val10 V0)
/-- After all twelve stretches. -/
def val12 : Valuation τ sig (Elt F) := after l12 (val11 V0)

/-! ### Stretch 1 -/

theorem val1_main_v9 : val1 V0 (no_index (Proc.devRef .tc main_v9)) = ReadP.val_main_v9 (F := F) (V0 (Proc.devRef .tc main_arg1)) := by
  unfold val1
  simp only [l1]
  after_results_simp
  rfl
theorem val1_main_v14 : val1 V0 (no_index (Proc.devRef .tc main_v14)) = ReadP.val_main_v14 (F := F) (V0 (Proc.devRef .tc main_arg1)) := by
  unfold val1
  simp only [l1]
  after_results_simp
  rfl
theorem val1_main_v17 : val1 V0 (no_index (Proc.devRef .tc main_v17)) = ReadP.val_main_v17 (F := F) := by
  unfold val1
  simp only [l1]
  after_results_simp
  rfl
theorem val1_main_v23 : val1 V0 (no_index (Proc.devRef .tc main_v23)) = ReadP.val_main_v23 (F := F) := by
  unfold val1
  simp only [l1]
  after_results_simp
  rfl
theorem val1_main_v24 : val1 V0 (no_index (Proc.devRef .tc main_v24)) = ReadP.val_main_v24 (F := F) (V0 (Proc.devRef .tc main_arg1)) := by
  unfold val1
  simp only [l1]
  after_results_simp
  rfl
theorem val1_main_v25 : val1 V0 (no_index (Proc.devRef .tc main_v25)) = ReadP.val_main_v25 (F := F) (V0 (Proc.devRef .tc main_arg1)) := by
  unfold val1
  simp only [l1]
  after_results_simp
  rfl
/-- The first stretch writes no argument. -/
theorem val1_main_arg1 : val1 V0 (no_index (Proc.devRef .tc main_arg1)) = V0 (Proc.devRef .tc main_arg1) := by
  unfold val1
  simp only [l1]
  after_results_simp

/-! ### Stretch 2 -/

theorem val2_main_v26 : val2 V0 (no_index (Proc.devRef .tc main_v26)) = ReadP.val_main_v26 (F := F) (V0 (Proc.devRef .tc main_arg1)) := by
  unfold val2
  simp only [l2]
  after_results_simp
  dsimp only [Matrix.cons_val]
  rw [val1_main_v23, val1_main_v24, val1_main_v25]
  rfl
theorem val2_main_v32 : val2 V0 (no_index (Proc.devRef .tc main_v32)) = ReadP.val_main_v32 (F := F) (V0 (Proc.devRef .tc main_arg1)) := by
  unfold val2
  simp only [l2]
  after_results_simp
  simp only [val1_main_arg1]
  rfl
theorem val2_main_v33 : val2 V0 (no_index (Proc.devRef .tc main_v33)) = ReadP.val_main_v33 (F := F) := by
  unfold val2
  simp only [l2]
  after_results_simp
  simp only [val1_main_v17]
  rfl
theorem val2_main_v34 : val2 V0 (no_index (Proc.devRef .tc main_v34)) = ReadP.val_main_v34 (F := F) (V0 (Proc.devRef .tc main_arg1)) := by
  unfold val2
  simp only [l2]
  after_results_simp
  simp only [val1_main_arg1]
  rfl
theorem val2_main_v17 : val2 V0 (no_index (Proc.devRef .tc main_v17)) = ReadP.val_main_v17 (F := F) := by
  unfold val2
  simp only [l2]
  after_results_simp
  exact val1_main_v17 V0
theorem val2_main_arg1 : val2 V0 (no_index (Proc.devRef .tc main_arg1)) = V0 (Proc.devRef .tc main_arg1) := by
  unfold val2
  simp only [l2]
  after_results_simp
  exact val1_main_arg1 V0

/-! ### Stretch 3 -/

theorem val3_main_v35 : val3 V0 (no_index (Proc.devRef .tc main_v35)) = ReadP.val_main_v35 (F := F) (V0 (Proc.devRef .tc main_arg1)) := by
  unfold val3
  simp only [l3]
  after_results_simp
  dsimp only [Matrix.cons_val]
  rw [val2_main_v32, val2_main_v33, val2_main_v34]
  rfl
theorem val3_main_v41 : val3 V0 (no_index (Proc.devRef .tc main_v41)) = ReadP.val_main_v41 (F := F) (V0 (Proc.devRef .tc main_arg1)) := by
  unfold val3
  simp only [l3]
  after_results_simp
  simp only [val2_main_arg1]
  rfl
theorem val3_main_v42 : val3 V0 (no_index (Proc.devRef .tc main_v42)) = ReadP.val_main_v42 (F := F) (V0 (Proc.devRef .tc main_arg1)) := by
  unfold val3
  simp only [l3]
  after_results_simp
  simp only [val2_main_arg1]
  rfl
theorem val3_main_v43 : val3 V0 (no_index (Proc.devRef .tc main_v43)) = ReadP.val_main_v43 (F := F) := by
  unfold val3
  simp only [l3]
  after_results_simp
  simp only [val2_main_v17]
  rfl
theorem val3_main_v26 : val3 V0 (no_index (Proc.devRef .tc main_v26)) = ReadP.val_main_v26 (F := F) (V0 (Proc.devRef .tc main_arg1)) := by
  unfold val3
  simp only [l3]
  after_results_simp
  exact val2_main_v26 V0

/-! ### Stretch 4 -/

theorem val4_main_v45 : val4 V0 (no_index (Proc.devRef .tc main_v45)) = ReadP.val_main_v45 (F := F) (V0 (Proc.devRef .tc main_arg1)) := by
  unfold val4
  simp only [l4]
  after_results_simp
  simp only [val3_main_v26]
  rfl
theorem val4_main_v46 : val4 V0 (no_index (Proc.devRef .tc main_v46)) = ReadP.val_main_v46 (F := F) (V0 (Proc.devRef .tc main_arg1)) := by
  unfold val4
  simp only [l4]
  after_results_simp
  simp only [val3_main_v35]
  rfl
theorem val4_main_v47 : val4 V0 (no_index (Proc.devRef .tc main_v47)) = ReadP.val_main_v47 (F := F) (V0 (Proc.devRef .tc main_arg1)) := by
  unfold val4
  simp only [l4]
  after_results_simp
  dsimp only [Matrix.cons_val]
  rw [val3_main_v41, val3_main_v42, val3_main_v43]
  rfl

/-! ### Stretch 5 -/

theorem val5_main_v48 : val5 V0 (no_index (Proc.devRef .tc main_v48)) = ReadP.val_main_v48 (F := F) (V0 (Proc.devRef .tc main_arg1)) := by
  unfold val5
  simp only [l5]
  after_results_simp
  dsimp only [Matrix.cons_val]
  rw [val4_main_v45, val4_main_v46, val4_main_v47]
  rfl
theorem val5_main_v49 : val5 V0 (no_index (Proc.devRef .tc main_v49)) = ReadP.val_main_v49 (F := F) := by
  unfold val5
  simp only [l5]
  after_results_simp
  rfl
theorem val5_main_v50 : val5 V0 (no_index (Proc.devRef .tc main_v50)) = ReadP.val_main_v50 (F := F) := by
  unfold val5
  simp only [l5]
  after_results_simp
  rfl
theorem val5_main_c : val5 V0 (no_index (Proc.devRef .tc main_c)) = ReadP.val_main_c (F := F) := by
  unfold val5
  simp only [l5]
  after_results_simp
  rfl
/-- The two coefficients of the first rotation pass through stretches 2 to 5 unwritten. -/
theorem val5_main_v9 : val5 V0 (no_index (Proc.devRef .tc main_v9)) = ReadP.val_main_v9 (F := F) (V0 (Proc.devRef .tc main_arg1)) := by
  unfold val5 val4 val3 val2
  simp only [l5, l4, l3, l2]
  after_results_simp
  exact val1_main_v9 V0
theorem val5_main_v14 : val5 V0 (no_index (Proc.devRef .tc main_v14)) = ReadP.val_main_v14 (F := F) (V0 (Proc.devRef .tc main_arg1)) := by
  unfold val5 val4 val3 val2
  simp only [l5, l4, l3, l2]
  after_results_simp
  exact val1_main_v14 V0
/-- The first five stretches write no argument. -/
theorem val5_main_arg2 : val5 V0 (no_index (Proc.devRef .tc main_arg2)) = V0 (Proc.devRef .tc main_arg2) := by
  unfold val5 val4 val3 val2 val1
  simp only [l5, l4, l3, l2, l1]
  after_results_simp

/-! ### Stretch 6 -/

theorem val6_main_v65 : val6 V0 (no_index (Proc.devRef .tc main_v65)) = ReadP.val_main_v65 (F := F) (V0 (Proc.devRef .tc main_arg1)) := by
  unfold val6
  simp only [l6]
  after_results_simp
  simp only [val5_main_v9, val5_main_v14, val5_main_v48, val5_main_v49, val5_main_v50, val5_main_c]
  rfl
theorem val6_main_v75 : val6 V0 (no_index (Proc.devRef .tc main_v75)) = ReadP.val_main_v75 (F := F) (V0 (Proc.devRef .tc main_arg2)) := by
  unfold val6
  simp only [l6]
  after_results_simp
  simp only [val5_main_arg2]
  rfl
theorem val6_main_v80 : val6 V0 (no_index (Proc.devRef .tc main_v80)) = ReadP.val_main_v80 (F := F) (V0 (Proc.devRef .tc main_arg2)) := by
  unfold val6
  simp only [l6]
  after_results_simp
  simp only [val5_main_arg2]
  rfl
theorem val6_main_v83 : val6 V0 (no_index (Proc.devRef .tc main_v83)) = ReadP.val_main_v83 (F := F) := by
  unfold val6
  simp only [l6]
  after_results_simp
  rfl
theorem val6_main_v89 : val6 V0 (no_index (Proc.devRef .tc main_v89)) = ReadP.val_main_v89 (F := F) := by
  unfold val6
  simp only [l6]
  after_results_simp
  rfl
theorem val6_main_v90 : val6 V0 (no_index (Proc.devRef .tc main_v90)) = ReadP.val_main_v90 (F := F) (V0 (Proc.devRef .tc main_arg2)) := by
  unfold val6
  simp only [l6]
  after_results_simp
  simp only [val5_main_arg2]
  rfl
theorem val6_main_v91 : val6 V0 (no_index (Proc.devRef .tc main_v91)) = ReadP.val_main_v91 (F := F) (V0 (Proc.devRef .tc main_arg2)) := by
  unfold val6
  simp only [l6]
  after_results_simp
  simp only [val5_main_arg2]
  rfl
theorem val6_main_arg2 : val6 V0 (no_index (Proc.devRef .tc main_arg2)) = V0 (Proc.devRef .tc main_arg2) := by
  unfold val6
  simp only [l6]
  after_results_simp
  exact val5_main_arg2 V0

/-! ### Stretch 7 -/

theorem val7_main_v92 : val7 V0 (no_index (Proc.devRef .tc main_v92)) = ReadP.val_main_v92 (F := F) (V0 (Proc.devRef .tc main_arg2)) := by
  unfold val7
  simp only [l7]
  after_results_simp
  dsimp only [Matrix.cons_val]
  rw [val6_main_v89, val6_main_v90, val6_main_v91]
  rfl
theorem val7_main_v98 : val7 V0 (no_index (Proc.devRef .tc main_v98)) = ReadP.val_main_v98 (F := F) (V0 (Proc.devRef .tc main_arg2)) := by
  unfold val7
  simp only [l7]
  after_results_simp
  simp only [val6_main_arg2]
  rfl
theorem val7_main_v99 : val7 V0 (no_index (Proc.devRef .tc main_v99)) = ReadP.val_main_v99 (F := F) := by
  unfold val7
  simp only [l7]
  after_results_simp
  simp only [val6_main_v83]
  rfl
theorem val7_main_v100 : val7 V0 (no_index (Proc.devRef .tc main_v100)) = ReadP.val_main_v100 (F := F) (V0 (Proc.devRef .tc main_arg2)) := by
  unfold val7
  simp only [l7]
  after_results_simp
  simp only [val6_main_arg2]
  rfl
theorem val7_main_arg2 : val7 V0 (no_index (Proc.devRef .tc main_arg2)) = V0 (Proc.devRef .tc main_arg2) := by
  unfold val7
  simp only [l7]
  after_results_simp
  exact val6_main_arg2 V0

/-! ### Stretch 8 -/

theorem val8_main_v101 : val8 V0 (no_index (Proc.devRef .tc main_v101)) = ReadP.val_main_v101 (F := F) (V0 (Proc.devRef .tc main_arg2)) := by
  unfold val8
  simp only [l8]
  after_results_simp
  dsimp only [Matrix.cons_val]
  rw [val7_main_v98, val7_main_v99, val7_main_v100]
  rfl
theorem val8_main_v102 : val8 V0 (no_index (Proc.devRef .tc main_v102)) = ReadP.val_main_v102 (F := F) (V0 (Proc.devRef .tc main_arg2)) := by
  unfold val8
  simp only [l8]
  after_results_simp
  simp only [val7_main_arg2]
  rfl
theorem val8_main_v83 : val8 V0 (no_index (Proc.devRef .tc main_v83)) = ReadP.val_main_v83 (F := F) := by
  unfold val8 val7
  simp only [l8, l7]
  after_results_simp
  exact val6_main_v83 V0
theorem val8_main_arg2 : val8 V0 (no_index (Proc.devRef .tc main_arg2)) = V0 (Proc.devRef .tc main_arg2) := by
  unfold val8
  simp only [l8]
  after_results_simp
  exact val7_main_arg2 V0

/-! ### Stretch 9 -/

theorem val9_main_v107 : val9 V0 (no_index (Proc.devRef .tc main_v107)) = ReadP.val_main_v107 (F := F) (V0 (Proc.devRef .tc main_arg2)) := by
  unfold val9
  simp only [l9]
  after_results_simp
  simp only [val8_main_v102]
  rfl
theorem val9_main_v108 : val9 V0 (no_index (Proc.devRef .tc main_v108)) = ReadP.val_main_v108 (F := F) (V0 (Proc.devRef .tc main_arg2)) := by
  unfold val9
  simp only [l9]
  after_results_simp
  simp only [val8_main_arg2]
  rfl
theorem val9_main_v109 : val9 V0 (no_index (Proc.devRef .tc main_v109)) = ReadP.val_main_v109 (F := F) := by
  unfold val9
  simp only [l9]
  after_results_simp
  simp only [val8_main_v83]
  rfl
theorem val9_main_v92 : val9 V0 (no_index (Proc.devRef .tc main_v92)) = ReadP.val_main_v92 (F := F) (V0 (Proc.devRef .tc main_arg2)) := by
  unfold val9 val8
  simp only [l9, l8]
  after_results_simp
  exact val7_main_v92 V0
theorem val9_main_v101 : val9 V0 (no_index (Proc.devRef .tc main_v101)) = ReadP.val_main_v101 (F := F) (V0 (Proc.devRef .tc main_arg2)) := by
  unfold val9
  simp only [l9]
  after_results_simp
  exact val8_main_v101 V0

/-! ### Stretch 10 -/

theorem val10_main_v111 : val10 V0 (no_index (Proc.devRef .tc main_v111)) = ReadP.val_main_v111 (F := F) (V0 (Proc.devRef .tc main_arg2)) := by
  unfold val10
  simp only [l10]
  after_results_simp
  simp only [val9_main_v92]
  rfl
theorem val10_main_v112 : val10 V0 (no_index (Proc.devRef .tc main_v112)) = ReadP.val_main_v112 (F := F) (V0 (Proc.devRef .tc main_arg2)) := by
  unfold val10
  simp only [l10]
  after_results_simp
  simp only [val9_main_v101]
  rfl
theorem val10_main_v113 : val10 V0 (no_index (Proc.devRef .tc main_v113)) = ReadP.val_main_v113 (F := F) (V0 (Proc.devRef .tc main_arg2)) := by
  unfold val10
  simp only [l10]
  after_results_simp
  dsimp only [Matrix.cons_val]
  rw [val9_main_v107, val9_main_v108, val9_main_v109]
  rfl
/-- The first rotation and the second's two coefficients pass through stretches 7 to 10 unwritten. -/
theorem val10_main_v65 : val10 V0 (no_index (Proc.devRef .tc main_v65)) = ReadP.val_main_v65 (F := F) (V0 (Proc.devRef .tc main_arg1)) := by
  unfold val10 val9 val8 val7
  simp only [l10, l9, l8, l7]
  after_results_simp
  exact val6_main_v65 V0
theorem val10_main_v75 : val10 V0 (no_index (Proc.devRef .tc main_v75)) = ReadP.val_main_v75 (F := F) (V0 (Proc.devRef .tc main_arg2)) := by
  unfold val10 val9 val8 val7
  simp only [l10, l9, l8, l7]
  after_results_simp
  exact val6_main_v75 V0
theorem val10_main_v80 : val10 V0 (no_index (Proc.devRef .tc main_v80)) = ReadP.val_main_v80 (F := F) (V0 (Proc.devRef .tc main_arg2)) := by
  unfold val10 val9 val8 val7
  simp only [l10, l9, l8, l7]
  after_results_simp
  exact val6_main_v80 V0
/-- The first ten stretches write no argument. -/
theorem val10_main_arg0 : val10 V0 (no_index (Proc.devRef .tc main_arg0)) = V0 (Proc.devRef .tc main_arg0) := by
  unfold val10 val9 val8 val7 val6 val5 val4 val3 val2 val1
  simp only [l10, l9, l8, l7, l6, l5, l4, l3, l2, l1]
  after_results_simp
theorem val10_main_arg1 : val10 V0 (no_index (Proc.devRef .tc main_arg1)) = V0 (Proc.devRef .tc main_arg1) := by
  unfold val10 val9 val8 val7 val6 val5 val4 val3
  simp only [l10, l9, l8, l7, l6, l5, l4, l3]
  after_results_simp
  exact val2_main_arg1 V0
theorem val10_main_arg2 : val10 V0 (no_index (Proc.devRef .tc main_arg2)) = V0 (Proc.devRef .tc main_arg2) := by
  unfold val10 val9
  simp only [l10, l9]
  after_results_simp
  exact val8_main_arg2 V0
theorem val10_main_arg3 : val10 V0 (no_index (Proc.devRef .tc main_arg3)) = V0 (Proc.devRef .tc main_arg3) := by
  unfold val10 val9 val8 val7 val6 val5 val4 val3 val2 val1
  simp only [l10, l9, l8, l7, l6, l5, l4, l3, l2, l1]
  after_results_simp

/-! ### Stretch 11 -/

theorem val11_main_v138 : val11 V0 (no_index (Proc.devRef .tc main_v138))
    = ReadP.val_main_v138 (F := F) (V0 (Proc.devRef .tc main_arg1)) (V0 (Proc.devRef .tc main_arg2)) (V0 (Proc.devRef .tc main_arg3)) := by
  unfold val11
  simp only [l11]
  after_results_simp
  dsimp only [Matrix.cons_val]
  rw [val10_main_v111, val10_main_v112, val10_main_v113]
  simp only [val10_main_v65, val10_main_v75, val10_main_v80, val10_main_arg3]
  rfl
theorem val11_main_v139 : val11 V0 (no_index (Proc.devRef .tc main_v139)) = ReadP.val_main_v139 (F := F) (V0 (Proc.devRef .tc main_arg0)) := by
  unfold val11
  simp only [l11]
  after_results_simp
  simp only [val10_main_arg0]
  rfl
theorem val11_main_arg0 : val11 V0 (no_index (Proc.devRef .tc main_arg0)) = V0 (Proc.devRef .tc main_arg0) := by
  unfold val11
  simp only [l11]
  after_results_simp
  exact val10_main_arg0 V0
theorem val11_main_arg1 : val11 V0 (no_index (Proc.devRef .tc main_arg1)) = V0 (Proc.devRef .tc main_arg1) := by
  unfold val11
  simp only [l11]
  after_results_simp
  exact val10_main_arg1 V0
theorem val11_main_arg2 : val11 V0 (no_index (Proc.devRef .tc main_arg2)) = V0 (Proc.devRef .tc main_arg2) := by
  unfold val11
  simp only [l11]
  after_results_simp
  exact val10_main_arg2 V0
theorem val11_main_arg3 : val11 V0 (no_index (Proc.devRef .tc main_arg3)) = V0 (Proc.devRef .tc main_arg3) := by
  unfold val11
  simp only [l11]
  after_results_simp
  exact val10_main_arg3 V0

/-! ### Stretch 12 -/

/-- The result: the stage function of the last operation, of the four arguments. -/
theorem val12_main_v140 : val12 V0 (no_index (Proc.devRef .tc main_v140))
    = ReadP.val_main_v140 (F := F) (V0 (Proc.devRef .tc main_arg0)) (V0 (Proc.devRef .tc main_arg1)) (V0 (Proc.devRef .tc main_arg2)) (V0 (Proc.devRef .tc main_arg3)) := by
  unfold val12
  simp only [l12]
  after_results_simp
  rw [val11_main_v138, val11_main_v139]
  rfl
/-- No stretch writes an argument. -/
theorem val12_main_arg0 : val12 V0 (no_index (Proc.devRef .tc main_arg0)) = V0 (Proc.devRef .tc main_arg0) := by
  unfold val12
  simp only [l12]
  after_results_simp
  exact val11_main_arg0 V0
theorem val12_main_arg1 : val12 V0 (no_index (Proc.devRef .tc main_arg1)) = V0 (Proc.devRef .tc main_arg1) := by
  unfold val12
  simp only [l12]
  after_results_simp
  exact val11_main_arg1 V0
theorem val12_main_arg2 : val12 V0 (no_index (Proc.devRef .tc main_arg2)) = V0 (Proc.devRef .tc main_arg2) := by
  unfold val12
  simp only [l12]
  after_results_simp
  exact val11_main_arg2 V0
theorem val12_main_arg3 : val12 V0 (no_index (Proc.devRef .tc main_arg3)) = V0 (Proc.devRef .tc main_arg3) := by
  unfold val12
  simp only [l12]
  after_results_simp
  exact val11_main_arg3 V0

end Values

/-! ## The whole line -/

/-- Stretches 1 to 5: the first 68 operations. -/
def w0 : List (HloOp τ sig (Elt F)) := l1 ++ l2 ++ l3 ++ l4 ++ l5
/-- Stretches 6 to 8: the next 68 operations. -/
def w1 : List (HloOp τ sig (Elt F)) := l6 ++ l7 ++ l8
/-- Stretches 9 to 12: the last 39 operations. -/
def w2 : List (HloOp τ sig (Elt F)) := l9 ++ l10 ++ l11 ++ l12
/-- The reference's 175 operations, in order. -/
def ops : List (HloOp τ sig (Elt F)) := w0 ++ (w1 ++ w2)

set_option maxRecDepth 8192 in
theorem main_part0_eq (c : Dev nD) : main_part0 (F := F) c = seq w0 := rfl
set_option maxRecDepth 8192 in
theorem main_part1_eq (c : Dev nD) : main_part1 (F := F) c = seq w1 := rfl
set_option maxRecDepth 8192 in
theorem main_part2_eq (c : Dev nD) : main_part2 (F := F) c = seq w2 := rfl

/-- The program is its operations run in order. -/
theorem main_eq (c : Dev nD) : main (F := F) c = seq ops :=
  (show main (F := F) c = (main_part0 c >>= fun _ => main_part1 c >>= fun _ => main_part2 c) from rfl).trans
    (by rw [main_part0_eq, main_part1_eq, main_part2_eq, ops, seq_append, seq_append])

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig := by
  simp only [ops, w0, w1, w2, l1, l2, l3, l4, l5, l6, l7, l8, l9, l10, l11, l12, List.forall_append, List.Forall,
    nullary_bufs_sub, unary_bufs_sub, binary_bufs_sub, ternary_bufs_sub, reshape_bufs_sub, nary_bufs_sub, and_self]

/-- Every operation determines its results. -/
theorem ops_fresh : (ops : List (HloOp τ sig (Elt F))).Forall fun op => op.fresh = ∅ := by
  simp only [ops, w0, w1, w2, l1, l2, l3, l4, l5, l6, l7, l8, l9, l10, l11, l12, List.forall_append, List.Forall]
  and_intros <;> rfl

/-- The contents after the whole line are those after the twelve stretches. -/
theorem after_ops (V0 : Valuation τ sig (Elt F)) : after ops V0 = val12 V0 := by
  simp only [ops, w0, w1, w2, after_append]
  rfl

/-- On every device, for any float values, from any memory with zero counters: every weakly fair execution of
    the reference terminates with its result at the last operation's stage function of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v140)
        = Cert.ReferenceIdeal.ReadP.val_main_v140 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v140).trans ((congrFun (after_ops (launchContents m c)) _).trans (val12_main_v140 (launchContents m c))),
       (h c main_arg0).trans ((congrFun (after_ops (launchContents m c)) _).trans (val12_main_arg0 (launchContents m c))),
       (h c main_arg1).trans ((congrFun (after_ops (launchContents m c)) _).trans (val12_main_arg1 (launchContents m c))),
       (h c main_arg2).trans ((congrFun (after_ops (launchContents m c)) _).trans (val12_main_arg2 (launchContents m c))),
       (h c main_arg3).trans ((congrFun (after_ops (launchContents m c)) _).trans (val12_main_arg3 (launchContents m c)))⟩)
    (run_seq scopedRefs_eq scopedSems_eq defs main (fun _ => ops) main_eq (fun _ => ops_sub) m ρ
      (fun _ => List.forall_iff_forall_mem.mp ops_fresh))

end Cert.ReferenceIdeal.HandRun

end
-- ==== Proof.Spec.lean ====
/-
  The value both programs compute, as ONE function of the four argument arrays, index by index, over the extended reals.

  For one sample (one row `b` of the arrays) write `v` for its row of `rotat`, `w` for its row of `scal_dir`, `s` for its row of
  `scal` and `t` for its row of `trans`. With `θ² = v₀² + v₁² + v₂²`, `θ = √θ²`, and the two Rodrigues coefficients
  `a = sin θ / θ`, `b = (1 - cos θ) / θ²` (replaced by `1` and `1/2` below the threshold `θ < 1e-6`, the divisors by `1`), the
  rotation matrix of `v` is `R = I + a K + b K²` for the skew matrix `K` of `v`; because `K² = v vᵀ - θ² I` its entries are
  `R_ii = 1 + b (v_i² - θ²)` and `R_ij = ± a v_k + b v_i v_j` off the diagonal: `rotE`. The sample's result is the 3×4 matrix whose
  first three columns are `R(v) · (U diag(e^s) Uᵀ)` with `U = R(w)`, and whose last column is `t`: `entry`.
-/
import Idealize.ShloMosaic.PureOps.Ideal
import Idealize.ShloMosaic.Lib.ValueIdx

noncomputable section

namespace Cert.AffSpec

open Idealize.ShloMosaic Idealize.ShloMosaic.ValueIdx

/-- The float literals of the two programs, as extended reals: `1`, `1/2`, `0` and the threshold `1e-6` (its f32 value). -/
abbrev lit1 : EReal := Ideal.ofBits .f32 0x3F800000#32
abbrev litHalf : EReal := Ideal.ofBits .f32 0x3F000000#32
abbrev lit0 : EReal := Ideal.ofBits .f32 0x00000000#32
abbrev litEps : EReal := Ideal.ofBits .f32 0x358637BD#32

/-- `θ²`: the squared length of a row, summed in the order `(v₀² + v₁²) + v₂²`. -/
def sqLen (v : Fin 3 → EReal) : EReal := v 0 * v 0 + v 1 * v 1 + v 2 * v 2

/-- The bit "the angle `√θ²` is below the threshold". -/
def isSmall (q : EReal) : BitVec 1 := FloatOps.cmpf (F := Ideal) (φ := .f32) .olt (Ideal.sqrt q) litEps

/-- `a = sin θ / θ`, with `1` below the threshold. -/
def coefA (q : EReal) : EReal :=
  Scalar.select (isSmall q) lit1 (Ideal.div (Ideal.sin (Ideal.sqrt q)) (Scalar.select (isSmall q) lit1 (Ideal.sqrt q)))

/-- `b = (1 - cos θ) / θ²`, with `1/2` below the threshold. -/
def coefB (q : EReal) : EReal :=
  Scalar.select (isSmall q) litHalf (Ideal.div (lit1 - Ideal.cos (Ideal.sqrt q)) (Scalar.select (isSmall q) lit1 q))

/-- The rotation matrix of `v` in closed form, from the two coefficients `a`, `b` and `q = θ²`. -/
def rotE (a b q : EReal) (v : Fin 3 → EReal) : Fin 3 → Fin 3 → EReal :=
  ![![lit1 + b * (v 0 * v 0 - q), (lit0 - a) * v 2 + b * (v 0 * v 1), a * v 1 + b * (v 0 * v 2)],
    ![a * v 2 + b * (v 1 * v 0), lit1 + b * (v 1 * v 1 - q), (lit0 - a) * v 0 + b * (v 1 * v 2)],
    ![(lit0 - a) * v 1 + b * (v 2 * v 0), a * v 0 + b * (v 2 * v 1), lit1 + b * (v 2 * v 2 - q)]]

/-- The rotation matrix of a row. -/
def rot (v : Fin 3 → EReal) : Fin 3 → Fin 3 → EReal := rotE (coefA (sqLen v)) (coefB (sqLen v)) (sqLen v) v

/-- `U diag(d) Uᵀ`, entry `(i, j)`: the sum over `k` of `(U_ik d_k) U_jk`. -/
def sandwich (U : Fin 3 → Fin 3 → EReal) (d : Fin 3 → EReal) (i j : Fin 3) : EReal :=
  U i 0 * d 0 * U j 0 + U i 1 * d 1 * U j 1 + U i 2 * d 2 * U j 2

/-- A 3×3 product, entry `(i, j)`. -/
def mul3 (R M : Fin 3 → Fin 3 → EReal) (i j : Fin 3) : EReal :=
  R i 0 * M 0 j + R i 1 * M 1 j + R i 2 * M 2 j

/-- One sample's 3×4 result: `R(v) · (R(w) diag(e^s) R(w)ᵀ)` in the first three columns, the translation `t` in the last. -/
def entry (t v w s : Fin 3 → EReal) (i : Fin 3) (j : Fin 4) : EReal :=
  ![mul3 (rot v) (sandwich (rot w) fun k => Ideal.exp (s k)) i 0,
    mul3 (rot v) (sandwich (rot w) fun k => Ideal.exp (s k)) i 1,
    mul3 (rot v) (sandwich (rot w) fun k => Ideal.exp (s k)) i 2,
    t i] j

/-! The entries at literal indices, for rewriting. -/

theorem fin3_cases (p : Fin 3) : p = 0 ∨ p = 1 ∨ p = 2 := by revert p; decide
theorem fin4_cases (p : Fin 4) : p = 0 ∨ p = 1 ∨ p = 2 ∨ p = 3 := by revert p; decide

section Entries
variable (a b q : EReal) (v : Fin 3 → EReal)
theorem rotE_00 : rotE a b q v 0 0 = lit1 + b * (v 0 * v 0 - q) := rfl
theorem rotE_01 : rotE a b q v 0 1 = (lit0 - a) * v 2 + b * (v 0 * v 1) := rfl
theorem rotE_02 : rotE a b q v 0 2 = a * v 1 + b * (v 0 * v 2) := rfl
theorem rotE_10 : rotE a b q v 1 0 = a * v 2 + b * (v 1 * v 0) := rfl
theorem rotE_11 : rotE a b q v 1 1 = lit1 + b * (v 1 * v 1 - q) := rfl
theorem rotE_12 : rotE a b q v 1 2 = (lit0 - a) * v 0 + b * (v 1 * v 2) := rfl
theorem rotE_20 : rotE a b q v 2 0 = (lit0 - a) * v 1 + b * (v 2 * v 0) := rfl
theorem rotE_21 : rotE a b q v 2 1 = a * v 0 + b * (v 2 * v 1) := rfl
theorem rotE_22 : rotE a b q v 2 2 = lit1 + b * (v 2 * v 2 - q) := rfl
end Entries

section Entry
variable (t v w s : Fin 3 → EReal) (i : Fin 3)
theorem entry_0 : entry t v w s i 0 = mul3 (rot v) (sandwich (rot w) fun k => Ideal.exp (s k)) i 0 := rfl
theorem entry_1 : entry t v w s i 1 = mul3 (rot v) (sandwich (rot w) fun k => Ideal.exp (s k)) i 1 := rfl
theorem entry_2 : entry t v w s i 2 = mul3 (rot v) (sandwich (rot w) fun k => Ideal.exp (s k)) i 2 := rfl
theorem entry_3 : entry t v w s i 3 = t i := rfl
end Entry

section Pick
variable {α : Type} (a b c d : α)
theorem pick3_0 : (![a, b, c] : Fin 3 → α) 0 = a := rfl
theorem pick3_1 : (![a, b, c] : Fin 3 → α) 1 = b := rfl
theorem pick3_2 : (![a, b, c] : Fin 3 → α) 2 = c := rfl
theorem pick4_0 : (![a, b, c, d] : Fin 4 → α) 0 = a := rfl
theorem pick4_1 : (![a, b, c, d] : Fin 4 → α) 1 = b := rfl
theorem pick4_2 : (![a, b, c, d] : Fin 4 → α) 2 = c := rfl
theorem pick4_3 : (![a, b, c, d] : Fin 4 → α) 3 = d := rfl
end Pick

/-- Row `b` of an `n × 3` array. -/
def rowOf {n : ℕ} (x : (⟨2, ![n, 3]⟩ : Shape).Idx → EReal) (b : Fin n) : Fin 3 → EReal := fun k => x (ix2 b k)

/-- The whole result array over `n` samples: sample `b`'s matrix from row `b` of each argument. -/
def G {n : ℕ} (tr ro sd sc : (⟨2, ![n, 3]⟩ : Shape).Idx → EReal) : (⟨3, ![n, 3, 4]⟩ : Shape).Idx → EReal :=
  fun i => entry (rowOf tr (i 0)) (rowOf ro (i 0)) (rowOf sd (i 0)) (rowOf sc (i 0)) (i 1) (i 2)

theorem G_apply {n : ℕ} (tr ro sd sc : (⟨2, ![n, 3]⟩ : Shape).Idx → EReal) (b : Fin n) (i : Fin 3) (j : Fin 4) :
    G tr ro sd sc (ix3 b i j) = entry (rowOf tr b) (rowOf ro b) (rowOf sd b) (rowOf sc b) i j := rfl

end Cert.AffSpec

end
-- ==== Proof.LibConcatRead.lean ====
/-
  Arrays assembled from columns and from row slabs, read at an index given by coordinates; and a column of a staged
  `[n, 3]` block read through its load rectangle.

  A concatenation along an axis reads, at an index, the piece whose span along that axis holds the index's coordinate
  there, at the coordinate less the extents of the pieces before it. Here that is spelt out for the joins a
  "matrix per sample" program makes: three or four `[n, 1]` columns side by side (`[n, 3]`, `[n, 4]`): entry `(b, j)` is
  column `j`'s row `b`; three `[n, 1, m]` slabs stacked along the middle axis (`[n, 3, m]`): entry `(b, i, j)` is slab `i`'s
  entry `(b, 0, j)`; and an `[n, 3, 3]` array with an `[n, 3, 1]` array appended along the last axis (`[n, 3, 4]`): the first
  three entries of each row come from the former, the fourth from the latter.
-/
import Idealize.ShloMosaic.Lib.Pipeline.Value
import Idealize.ShloMosaic.Lib.ValueIdx

namespace Cert.ConcatRead

open Idealize.ShloMosaic Idealize.ShloMosaic.ValueIdx

variable {α : Type}

/-- Three `[n, 1]` columns side by side: entry `(b, j)` of the `[n, 3]` result is column `j` at row `b`. -/
theorem concat3_cols_apply {n : ℕ} (c0 c1 c2 : (⟨2, ![n, 1]⟩ : Shape).Idx → α)
    (h : Shape.Concatenates [(⟨2, ![n, 1]⟩ : Shape), ⟨2, ![n, 1]⟩, ⟨2, ![n, 1]⟩] ⟨2, ![n, 3]⟩ 1) (b : Fin n) (j : Fin 3) :
    concatenate ⟨2, ![n, 3]⟩ 1 [⟨⟨2, ![n, 1]⟩, c0⟩, ⟨⟨2, ![n, 1]⟩, c1⟩, ⟨⟨2, ![n, 1]⟩, c2⟩] h (ix2 b j)
      = (![c0, c1, c2] j) (ix2 b 0) := by
  match j with
  | ⟨0, hj⟩ =>
    exact concatenate_apply_piece (t := ⟨2, ![n, 3]⟩) 1 [⟨⟨2, ![n, 1]⟩, c0⟩, ⟨⟨2, ![n, 1]⟩, c1⟩, ⟨⟨2, ![n, 1]⟩, c2⟩] h
      (ix2 b ⟨0, hj⟩) 0 (by show (0:ℕ) < 3; decide) ⟨2, ![n, 1]⟩ c0 rfl rfl 0 rfl (ix2 b 0)
      (fun ax hne => match ax with | ⟨0, _⟩ => rfl | ⟨1, _⟩ => absurd rfl hne) rfl
  | ⟨1, hj⟩ =>
    exact concatenate_apply_piece (t := ⟨2, ![n, 3]⟩) 1 [⟨⟨2, ![n, 1]⟩, c0⟩, ⟨⟨2, ![n, 1]⟩, c1⟩, ⟨⟨2, ![n, 1]⟩, c2⟩] h
      (ix2 b ⟨1, hj⟩) 1 (by show (1:ℕ) < 3; decide) ⟨2, ![n, 1]⟩ c1 rfl rfl 1 rfl (ix2 b 0)
      (fun ax hne => match ax with | ⟨0, _⟩ => rfl | ⟨1, _⟩ => absurd rfl hne) rfl
  | ⟨2, hj⟩ =>
    exact concatenate_apply_piece (t := ⟨2, ![n, 3]⟩) 1 [⟨⟨2, ![n, 1]⟩, c0⟩, ⟨⟨2, ![n, 1]⟩, c1⟩, ⟨⟨2, ![n, 1]⟩, c2⟩] h
      (ix2 b ⟨2, hj⟩) 2 (by show (2:ℕ) < 3; decide) ⟨2, ![n, 1]⟩ c2 rfl rfl 2 rfl (ix2 b 0)
      (fun ax hne => match ax with | ⟨0, _⟩ => rfl | ⟨1, _⟩ => absurd rfl hne) rfl

/-- Four `[n, 1]` columns side by side: entry `(b, j)` of the `[n, 4]` result is column `j` at row `b`. -/
theorem concat4_cols_apply {n : ℕ} (c0 c1 c2 c3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (b : Fin n) (j : Fin 4) :
    concatenate ⟨2, ![n, 4]⟩ 1 [⟨⟨2, ![n, 1]⟩, c0⟩, ⟨⟨2, ![n, 1]⟩, c1⟩, ⟨⟨2, ![n, 1]⟩, c2⟩, ⟨⟨2, ![n, 1]⟩, c3⟩] h (ix2 b j)
      = (![c0, c1, c2, c3] j) (ix2 b 0) := by
  match j with
  | ⟨0, hj⟩ =>
    exact concatenate_apply_piece (t := ⟨2, ![n, 4]⟩) 1 [⟨⟨2, ![n, 1]⟩, c0⟩, ⟨⟨2, ![n, 1]⟩, c1⟩, ⟨⟨2, ![n, 1]⟩, c2⟩, ⟨⟨2, ![n, 1]⟩, c3⟩] h
      (ix2 b ⟨0, hj⟩) 0 (by show (0:ℕ) < 4; decide) ⟨2, ![n, 1]⟩ c0 rfl rfl 0 rfl (ix2 b 0)
      (fun ax hne => match ax with | ⟨0, _⟩ => rfl | ⟨1, _⟩ => absurd rfl hne) rfl
  | ⟨1, hj⟩ =>
    exact concatenate_apply_piece (t := ⟨2, ![n, 4]⟩) 1 [⟨⟨2, ![n, 1]⟩, c0⟩, ⟨⟨2, ![n, 1]⟩, c1⟩, ⟨⟨2, ![n, 1]⟩, c2⟩, ⟨⟨2, ![n, 1]⟩, c3⟩] h
      (ix2 b ⟨1, hj⟩) 1 (by show (1:ℕ) < 4; decide) ⟨2, ![n, 1]⟩ c1 rfl rfl 1 rfl (ix2 b 0)
      (fun ax hne => match ax with | ⟨0, _⟩ => rfl | ⟨1, _⟩ => absurd rfl hne) rfl
  | ⟨2, hj⟩ =>
    exact concatenate_apply_piece (t := ⟨2, ![n, 4]⟩) 1 [⟨⟨2, ![n, 1]⟩, c0⟩, ⟨⟨2, ![n, 1]⟩, c1⟩, ⟨⟨2, ![n, 1]⟩, c2⟩, ⟨⟨2, ![n, 1]⟩, c3⟩] h
      (ix2 b ⟨2, hj⟩) 2 (by show (2:ℕ) < 4; decide) ⟨2, ![n, 1]⟩ c2 rfl rfl 2 rfl (ix2 b 0)
      (fun ax hne => match ax with | ⟨0, _⟩ => rfl | ⟨1, _⟩ => absurd rfl hne) rfl
  | ⟨3, hj⟩ =>
    exact concatenate_apply_piece (t := ⟨2, ![n, 4]⟩) 1 [⟨⟨2, ![n, 1]⟩, c0⟩, ⟨⟨2, ![n, 1]⟩, c1⟩, ⟨⟨2, ![n, 1]⟩, c2⟩, ⟨⟨2, ![n, 1]⟩, c3⟩] h
      (ix2 b ⟨3, hj⟩) 3 (by show (3:ℕ) < 4; decide) ⟨2, ![n, 1]⟩ c3 rfl rfl 3 rfl (ix2 b 0)
      (fun ax hne => match ax with | ⟨0, _⟩ => rfl | ⟨1, _⟩ => absurd rfl hne) rfl

/-- Three `[n, 1, m]` slabs stacked along the middle axis: entry `(b, i, j)` of the `[n, 3, m]` result is slab `i` at `(b, 0, j)`. -/
theorem concat3_slabs_apply {n m : ℕ} (p0 p1 p2 : (⟨3, ![n, 1, m]⟩ : Shape).Idx → α)
    (h : Shape.Concatenates [(⟨3, ![n, 1, m]⟩ : Shape), ⟨3, ![n, 1, m]⟩, ⟨3, ![n, 1, m]⟩] ⟨3, ![n, 3, m]⟩ 1)
    (b : Fin n) (i : Fin 3) (j : Fin m) :
    concatenate ⟨3, ![n, 3, m]⟩ 1 [⟨⟨3, ![n, 1, m]⟩, p0⟩, ⟨⟨3, ![n, 1, m]⟩, p1⟩, ⟨⟨3, ![n, 1, m]⟩, p2⟩] h (ix3 b i j)
      = (![p0, p1, p2] i) (ix3 b 0 j) := by
  match i with
  | ⟨0, hi⟩ =>
    exact concatenate_apply_piece (t := ⟨3, ![n, 3, m]⟩) 1 [⟨⟨3, ![n, 1, m]⟩, p0⟩, ⟨⟨3, ![n, 1, m]⟩, p1⟩, ⟨⟨3, ![n, 1, m]⟩, p2⟩] h
      (ix3 b ⟨0, hi⟩ j) 0 (by show (0:ℕ) < 3; decide) ⟨3, ![n, 1, m]⟩ p0 rfl rfl 0 rfl (ix3 b 0 j)
      (fun ax hne => match ax with | ⟨0, _⟩ => rfl | ⟨1, _⟩ => absurd rfl hne | ⟨2, _⟩ => rfl) rfl
  | ⟨1, hi⟩ =>
    exact concatenate_apply_piece (t := ⟨3, ![n, 3, m]⟩) 1 [⟨⟨3, ![n, 1, m]⟩, p0⟩, ⟨⟨3, ![n, 1, m]⟩, p1⟩, ⟨⟨3, ![n, 1, m]⟩, p2⟩] h
      (ix3 b ⟨1, hi⟩ j) 1 (by show (1:ℕ) < 3; decide) ⟨3, ![n, 1, m]⟩ p1 rfl rfl 1 rfl (ix3 b 0 j)
      (fun ax hne => match ax with | ⟨0, _⟩ => rfl | ⟨1, _⟩ => absurd rfl hne | ⟨2, _⟩ => rfl) rfl
  | ⟨2, hi⟩ =>
    exact concatenate_apply_piece (t := ⟨3, ![n, 3, m]⟩) 1 [⟨⟨3, ![n, 1, m]⟩, p0⟩, ⟨⟨3, ![n, 1, m]⟩, p1⟩, ⟨⟨3, ![n, 1, m]⟩, p2⟩] h
      (ix3 b ⟨2, hi⟩ j) 2 (by show (2:ℕ) < 3; decide) ⟨3, ![n, 1, m]⟩ p2 rfl rfl 2 rfl (ix3 b 0 j)
      (fun ax hne => match ax with | ⟨0, _⟩ => rfl | ⟨1, _⟩ => absurd rfl hne | ⟨2, _⟩ => rfl) rfl

/-- An `[n, 3, 1]` array appended to an `[n, 3, 3]` array along the last axis: row `(b, i)` of the `[n, 3, 4]` result is the
    former's row `(b, i)` followed by the latter's one entry there. -/
theorem append_last_apply {n : ℕ} (x : (⟨3, ![n, 3, 3]⟩ : Shape).Idx → α) (y : (⟨3, ![n, 3, 1]⟩ : Shape).Idx → α)
    (h : Shape.Concatenates [(⟨3, ![n, 3, 3]⟩ : Shape), ⟨3, ![n, 3, 1]⟩] ⟨3, ![n, 3, 4]⟩ 2) (b : Fin n) (i : Fin 3) (j : Fin 4) :
    concatenate ⟨3, ![n, 3, 4]⟩ 2 [⟨⟨3, ![n, 3, 3]⟩, x⟩, ⟨⟨3, ![n, 3, 1]⟩, y⟩] h (ix3 b i j)
      = ![x (ix3 b i 0), x (ix3 b i 1), x (ix3 b i 2), y (ix3 b i 0)] j := by
  match j with
  | ⟨0, hj⟩ =>
    exact concatenate_apply_piece (t := ⟨3, ![n, 3, 4]⟩) 2 [⟨⟨3, ![n, 3, 3]⟩, x⟩, ⟨⟨3, ![n, 3, 1]⟩, y⟩] h
      (ix3 b i ⟨0, hj⟩) 0 (by show (0:ℕ) < 2; decide) ⟨3, ![n, 3, 3]⟩ x rfl rfl 0 rfl (ix3 b i 0)
      (fun ax hne => match ax with | ⟨0, _⟩ => rfl | ⟨1, _⟩ => rfl | ⟨2, _⟩ => absurd rfl hne) rfl
  | ⟨1, hj⟩ =>
    exact concatenate_apply_piece (t := ⟨3, ![n, 3, 4]⟩) 2 [⟨⟨3, ![n, 3, 3]⟩, x⟩, ⟨⟨3, ![n, 3, 1]⟩, y⟩] h
      (ix3 b i ⟨1, hj⟩) 0 (by show (0:ℕ) < 2; decide) ⟨3, ![n, 3, 3]⟩ x rfl rfl 0 rfl (ix3 b i 1)
      (fun ax hne => match ax with | ⟨0, _⟩ => rfl | ⟨1, _⟩ => rfl | ⟨2, _⟩ => absurd rfl hne) rfl
  | ⟨2, hj⟩ =>
    exact concatenate_apply_piece (t := ⟨3, ![n, 3, 4]⟩) 2 [⟨⟨3, ![n, 3, 3]⟩, x⟩, ⟨⟨3, ![n, 3, 1]⟩, y⟩] h
      (ix3 b i ⟨2, hj⟩) 0 (by show (0:ℕ) < 2; decide) ⟨3, ![n, 3, 3]⟩ x rfl rfl 0 rfl (ix3 b i 2)
      (fun ax hne => match ax with | ⟨0, _⟩ => rfl | ⟨1, _⟩ => rfl | ⟨2, _⟩ => absurd rfl hne) rfl
  | ⟨3, hj⟩ =>
    exact concatenate_apply_piece (t := ⟨3, ![n, 3, 4]⟩) 2 [⟨⟨3, ![n, 3, 3]⟩, x⟩, ⟨⟨3, ![n, 3, 1]⟩, y⟩] h
      (ix3 b i ⟨3, hj⟩) 1 (by show (1:ℕ) < 2; decide) ⟨3, ![n, 3, 1]⟩ y rfl rfl 3 rfl (ix3 b i 0)
      (fun ax hne => match ax with | ⟨0, _⟩ => rfl | ⟨1, _⟩ => rfl | ⟨2, _⟩ => absurd rfl hne) rfl

/-- A load of column `c` of a staged `[n, 3]` block through its unit-stride rectangle `[0, c]`, sizes `[n, 1]`: the
    `[n, 1]` vector whose row `r` is the block's entry `(r, c)`. -/
theorem ld_col {Val : EltTy → Type} {e : EltTy} {n : ℕ} (x : (⟨2, ![n, 3]⟩ : Shape).Idx → Val e) (c : ℕ) (hc : c < 3)
    (inb : ∀ a, (![0, c] : Fin 2 → ℕ) a + (⟨2, ![n, 1]⟩ : Shape).size a ≤ (⟨2, ![n, 3]⟩ : Shape).size a) :
    View.ld x (Rect.unit (s := ⟨2, ![n, 3]⟩) ![0, c] (⟨2, ![n, 1]⟩ : Shape).size inb)
      = fun y => x (ix2 (n0 := n) (n1 := 3) ⟨(y 0).val, (y 0).isLt⟩ ⟨c, hc⟩) := by
  funext y
  refine congrArg x (funext fun a => Fin.ext ?_)
  match a with
  | ⟨0, _⟩ => show 0 + 1 * (y 0).val = (y 0).val; omega
  | ⟨1, _⟩ =>
    have h1 : (y 1).val < 1 := (y 1).isLt
    show c + 1 * (y 1).val = c; omega

/-- A function picked out of three by an index, applied: the three values, picked by the index. -/
theorem vec3_apply {β γ : Type} (f0 f1 f2 : β → γ) (p : Fin 3) (y : β) : (![f0, f1, f2] p) y = ![f0 y, f1 y, f2 y] p := by
  match p with
  | ⟨0, _⟩ => rfl
  | ⟨1, _⟩ => rfl
  | ⟨2, _⟩ => rfl

/-- The same for four. -/
theorem vec4_apply {β γ : Type} (f0 f1 f2 f3 : β → γ) (p : Fin 4) (y : β) :
    (![f0, f1, f2, f3] p) y = ![f0 y, f1 y, f2 y, f3 y] p := by
  match p with
  | ⟨0, _⟩ => rfl
  | ⟨1, _⟩ => rfl
  | ⟨2, _⟩ => rfl
  | ⟨3, _⟩ => rfl

end Cert.ConcatRead
-- ==== Proof.LibRank3.lean ====
/-
  Rank-3 arrays read at an index given by coordinates.

  Layout: an `[a, b]` array viewed as `[a, b, 1]` or as `[a, 1, c]`, and those two laid along the missing axis of an
  `[a, b, c]` array.  Reductions over the extended reals: the sum along the last axis of an `[a, b, c]` array, its minimum
  along the last axis and along the middle axis (each a fold of `min` over that axis's coordinates from the accumulator
  word's value), and the product of an `[B, M, K]` array with an `[B, N, K]` array that is batched over the first axis and
  contracts the LAST axis of both: at (b, p, q) the sum over k of left (b, p, k) times right (b, q, k).
-/
import Idealize.ShloMosaic.Lib.Pipeline.Value
import Idealize.ShloMosaic.Lib.ValueIdx
import Idealize.ShloMosaic.PureOps.Ideal.Laws
import Idealize.ShloMosaic.PureOps.Reduce

noncomputable section

namespace Cert.Rank3

open Idealize.ShloMosaic Idealize.ShloMosaic.ValueIdx

/-! ## Layout -/

section Layout
variable {α : Type} {a b c : ℕ}

/-- An `[a, b]` array viewed as `[a, b, 1]` reads, at `(p, q, u)`, the operand at `(p, q)`. -/
theorem shapeCast_ab_ab1_apply (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, c]` array viewed as `[a, 1, c]` reads, at `(p, u, r)`, the operand at `(p, r)`. -/
theorem shapeCast_ac_a1c_apply (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_two, Shape.rowMajor_val_three]
    show p.val * c + r.val = (p.val * 1 + u.val) * c + r.val
    rw [hu, Nat.mul_one, Nat.add_zero])

/-- An `[a, b, 1]` array laid along the last axis of `[a, b, c]` reads, at `(p, q, r)`, its entry `(p, q, 0)`. -/
theorem broadcastTo_ab1_abc_apply (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` array laid along the middle axis of `[a, b, c]` reads, at `(p, q, r)`, its entry `(p, 0, r)`. -/
theorem broadcastTo_a1c_abc_apply (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

end Layout

/-! ## Reductions along one axis, over the extended reals -/

section Reduce
variable {φ : FTy} {a b c : ℕ}

/-- The sum along the last axis at `(p, q)`: the sum over `k` of the entries `(p, q, k)`. -/
theorem sum_last_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (funext fun ax => Fin.ext (by
      match ax with | ⟨0, _⟩ => rfl | ⟨1, _⟩ => rfl | ⟨2, _⟩ => rfl)))

/-- A minimum along one axis, at a result index: the fold of `min` from the accumulator word's value over that axis's
    coordinates. -/
theorem min_single {s t : Shape} {ax : Fin s.rank} (src : FVec Ideal s φ) (acc : BitVec φ.bits) (h : s.Reduces [ax] t)
    (hφ : FKind.Formats φ) (hacc : acc = FKind.minimumf.neutral φ hφ) (j : t.Idx) :
    multiReduction .minimumf [ax] t src acc h hφ hacc j
      = (Finset.univ : Finset (Fin (s.size ax))).fold min (Ideal.ofBits φ acc) (src ∘ h.lift j) := by
  rw [multiReduction_minimumf_eq_fold]; exact h.fold_filter_drop_single _ _ src j

/-- The minimum along the last axis at `(p, q)`: the least of the entries `(p, q, k)` and the accumulator word's value. -/
theorem min_last_apply (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.minimumf.neutral φ hφ) (p : Fin a) (q : Fin b) :
    multiReduction .minimumf [2] ⟨2, ![a, b]⟩ src acc h hφ hacc (ix2 p q)
      = Finset.univ.fold min (Ideal.ofBits φ acc) fun k : Fin c => src (ix3 p q k) :=
  (min_single src acc h hφ hacc (ix2 p q)).trans
    (Finset.fold_congr fun k _ => congrArg src (funext fun ax => Fin.ext (by
      match ax with | ⟨0, _⟩ => rfl | ⟨1, _⟩ => rfl | ⟨2, _⟩ => rfl)))

/-- The minimum along the middle axis at `(p, r)`: the least of the entries `(p, k, r)` and the accumulator word's value. -/
theorem min_mid_apply (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.minimumf.neutral φ hφ) (p : Fin a) (r : Fin c) :
    multiReduction .minimumf [1] ⟨2, ![a, c]⟩ src acc h hφ hacc (ix2 p r)
      = Finset.univ.fold min (Ideal.ofBits φ acc) fun k : Fin b => src (ix3 p k r) :=
  (min_single src acc h hφ hacc (ix2 p r)).trans
    (Finset.fold_congr fun k _ => congrArg src (funext fun ax => Fin.ext (by
      match ax with | ⟨0, _⟩ => rfl | ⟨1, _⟩ => rfl | ⟨2, _⟩ => rfl)))

end Reduce

/-! ## The batched product that contracts the last axis of both operands -/

section Product
variable {B M N K : ℕ}

/-- Its dimension numbers, as a record over their well-formedness evidence. -/
abbrev lastDims (wf : DotDims.WF (⟨3, ![B, M, K]⟩ : Shape) ⟨3, ![B, N, K]⟩ ⟨3, ![B, M, N]⟩ [2] [2] [1] [1] [0] [0]) :
    DotDims (⟨3, ![B, M, K]⟩ : Shape) ⟨3, ![B, N, K]⟩ ⟨3, ![B, M, N]⟩ := ⟨[2], [2], [1], [1], [0], [0], wf⟩

variable (wf : DotDims.WF (⟨3, ![B, M, K]⟩ : Shape) ⟨3, ![B, N, K]⟩ ⟨3, ![B, M, N]⟩ [2] [2] [1] [1] [0] [0])

theorem lhs_axis0 (j : (⟨3, ![B, M, N]⟩ : Shape).Idx) (q : (lastDims wf).contr.Idx) :
    ((lastDims wf).lhsIdx j q 0).val = (j 0).val := by
  unfold DotDims.lhsIdx
  rw [dif_pos (show (0 : Fin (⟨3, ![B, M, K]⟩ : Shape).rank) ∈ (lastDims wf).lhsBatch from List.mem_singleton.mpr rfl)]
  rfl
theorem lhs_axis1 (j : (⟨3, ![B, M, N]⟩ : Shape).Idx) (q : (lastDims wf).contr.Idx) :
    ((lastDims wf).lhsIdx j q 1).val = (j 1).val := by
  unfold DotDims.lhsIdx
  rw [dif_neg (show ¬(1 : Fin (⟨3, ![B, M, K]⟩ : Shape).rank) ∈ (lastDims wf).lhsBatch from
      fun h => Nat.one_ne_zero (congrArg Fin.val (List.mem_singleton.mp h))),
    dif_pos (show (1 : Fin (⟨3, ![B, M, K]⟩ : Shape).rank) ∈ (lastDims wf).lhsNonContracting from List.mem_singleton.mpr rfl)]
  rfl
theorem lhs_axis2 (j : (⟨3, ![B, M, N]⟩ : Shape).Idx) (q : (lastDims wf).contr.Idx) :
    ((lastDims wf).lhsIdx j q 2).val = (q ⟨0, Nat.one_pos⟩).val :=
  (lastDims wf).lhsIdx_val_of_single rfl j q
theorem rhs_axis0 (j : (⟨3, ![B, M, N]⟩ : Shape).Idx) (q : (lastDims wf).contr.Idx) :
    ((lastDims wf).rhsIdx j q 0).val = (j 0).val := by
  unfold DotDims.rhsIdx
  rw [dif_pos (show (0 : Fin (⟨3, ![B, N, K]⟩ : Shape).rank) ∈ (lastDims wf).rhsBatch from List.mem_singleton.mpr rfl)]
  rfl
theorem rhs_axis1 (j : (⟨3, ![B, M, N]⟩ : Shape).Idx) (q : (lastDims wf).contr.Idx) :
    ((lastDims wf).rhsIdx j q 1).val = (j 2).val := by
  unfold DotDims.rhsIdx
  rw [dif_neg (show ¬(1 : Fin (⟨3, ![B, N, K]⟩ : Shape).rank) ∈ (lastDims wf).rhsBatch from
      fun h => Nat.one_ne_zero (congrArg Fin.val (List.mem_singleton.mp h))),
    dif_pos (show (1 : Fin (⟨3, ![B, N, K]⟩ : Shape).rank) ∈ (lastDims wf).rhsNonContracting from List.mem_singleton.mpr rfl)]
  rfl
theorem rhs_axis2 (j : (⟨3, ![B, M, N]⟩ : Shape).Idx) (q : (lastDims wf).contr.Idx) :
    ((lastDims wf).rhsIdx j q 2).val = (q ⟨0, Nat.one_pos⟩).val :=
  (lastDims wf).rhsIdx_val_of_single rfl j q

/-- The left operand's index at result index (b, p, q) and contraction coordinate k is (b, p, k). -/
theorem lhsIdx_ix3 (b : Fin B) (p : Fin M) (q : Fin N) (k : Fin K) :
    (lastDims wf).lhsIdx (ix3 b p q) ((contrEquiv1 (lastDims wf) K rfl rfl).symm k) = ix3 b p k :=
  funext fun ax => Fin.ext (by
    have hk := contrEquiv1_symm_val (lastDims wf) K rfl rfl k
    match ax with
    | ⟨0, _⟩ => exact lhs_axis0 wf _ _
    | ⟨1, _⟩ => exact lhs_axis1 wf _ _
    | ⟨2, _⟩ => exact (lhs_axis2 wf _ _).trans hk)

/-- The right operand's index at result index (b, p, q) and contraction coordinate k is (b, q, k). -/
theorem rhsIdx_ix3 (b : Fin B) (p : Fin M) (q : Fin N) (k : Fin K) :
    (lastDims wf).rhsIdx (ix3 b p q) ((contrEquiv1 (lastDims wf) K rfl rfl).symm k) = ix3 b q k :=
  funext fun ax => Fin.ext (by
    have hk := contrEquiv1_symm_val (lastDims wf) K rfl rfl k
    match ax with
    | ⟨0, _⟩ => exact rhs_axis0 wf _ _
    | ⟨1, _⟩ => exact rhs_axis1 wf _ _
    | ⟨2, _⟩ => exact (rhs_axis2 wf _ _).trans hk)

/-- The product into the zero accumulator at (b, p, q): the sum over the contracted coordinate. -/
theorem matmul_zero_last_apply {φ₁ φ₂ : FTy} (prec : Option ContractPrecision)
    (lhs : FVec Ideal ⟨3, ![B, M, K]⟩ φ₁) (rhs : FVec Ideal ⟨3, ![B, N, K]⟩ φ₂) (b : Fin B) (p : Fin M) (q : Fin N) :
    FloatOps.matmul (lastDims wf) prec lhs rhs (constant ⟨3, ![B, M, N]⟩ .f32 0x00000000#32) (ix3 b p q)
      = ∑ k : Fin K, lhs (ix3 b p k) * rhs (ix3 b q k) := by
  rw [Ideal.matmul_constant_zero_apply, ← Equiv.sum_comp (contrEquiv1 (lastDims wf) K rfl rfl).symm]
  refine Finset.sum_congr rfl fun k _ => ?_
  rw [lhsIdx_ix3 wf b p q k, rhsIdx_ix3 wf b p q k]

end Product

end Cert.Rank3

end
-- ==== Proof.KernelBlock.lean ====
/-
  The kernel's body at one grid point, as a value: the output block it leaves is the specification's function `G` of the
  four input blocks. The body loads the three columns of each `[1000, 3]` input block as `[1000, 1]` vectors, computes
  twelve `[1000, 1]` columns by pointwise arithmetic (the two rotation matrices in closed form, `U diag(e^s) Uᵀ`, the
  product with `R`, and the translation), and stores them as one `[1000, 3, 4]` block: four columns side by side make a
  `[1000, 4]` row of the matrix, viewed as `[1000, 1, 4]`, and the three rows are stacked along the middle axis. Reading that
  assembly at `(r, i, j)` picks column `(i, j)` at row `r`, and each column at row `r` unfolds to the scalar formula.
-/
import proofs.«161049_j13958643712058_1_alg».proof.Proof.Gen.KernelIdeal.Frame
import proofs.«161049_j13958643712058_1_alg».proof.Proof.Spec
import proofs.«161049_j13958643712058_1_alg».proof.Proof.LibConcatRead
import proofs.«161049_j13958643712058_1_alg».proof.Proof.LibRank3

set_option maxRecDepth 16384

noncomputable section

namespace Cert.KernelIdeal.Block

open Cert.KernelIdeal Cert.KernelIdeal.Gen Idealize.ShloMosaic Idealize.ShloMosaic.ValueIdx Cert.AffSpec Cert.ConcatRead

/-- The three offsets of the whole-block rectangle are zero. -/
theorem off3_zero : (![0, 0, 0] : Fin S1000x3x4.rank → ℕ) = fun _ => 0 :=
  funext fun a => match a with | ⟨0, _⟩ => rfl | ⟨1, _⟩ => rfl | ⟨2, _⟩ => rfl

section Pointwise
variable {s : Shape} {φ : FTy}
/-- The kernel's transcendental vector operations act entry by entry; at the ideal instance each is its function on the extended reals. -/
theorem sqrt_apply (a : FVec Ideal s φ) (i : s.Idx) : sqrt a i = Ideal.sqrt (a i) := rfl
theorem sin_apply (a : FVec Ideal s φ) (i : s.Idx) : sin a i = Ideal.sin (a i) := rfl
theorem cos_apply (a : FVec Ideal s φ) (i : s.Idx) : cos a i = Ideal.cos (a i) := rfl
theorem exp_apply (a : FVec Ideal s φ) (i : s.Idx) : exp a i = Ideal.exp (a i) := rfl
end Pointwise

/-- What the body leaves in the output block, from the four input blocks, is the specification's function of them:
    row `r` of the block is sample `r`'s 3×4 matrix, computed from row `r` of each input block. Every operation of the body
    acts on `[1000, 1]` columns entry by entry, so at row `r` each of the twelve stored columns is the specification's scalar
    formula of the nine loaded entries `x₁(r, ·)`, `x₂(r, ·)`, `x₃(r, ·)` (and `x₀(r, i)` in the last column). -/
theorem out_eq (x0 x1 x2 x3 : Vec Ideal S1000x3 .f32) :
    out0_4 (F := Ideal) x0 x1 x2 x3 = G (n := 1000) x0 x1 x2 x3 := by
  funext y
  obtain ⟨r, p, q, rfl⟩ : ∃ (r : Fin 1000) (p : Fin 3) (q : Fin 4), y = ix3 r p q := ⟨y 0, y 1, y 2, eq_ix3 y⟩
  rw [G_apply]
  unfold out0_4
  rw [View.canon_unit_zero (S := S1000x3x4) off3_zero]
  simp only [k0_pay2, k0_pay1]
  rw [concat3_slabs_apply, vec3_apply]
  simp only [Cert.Rank3.shapeCast_ac_a1c_apply, concat4_cols_apply, vec4_apply]
  have e0 : ∀ x : Vec Ideal S1000x3 .f32, View.ld x r0_0 = fun y => x (ix2 (n0 := 1000) (n1 := 3) ⟨(y 0).val, (y 0).isLt⟩ 0) :=
    fun x => ld_col (n := 1000) x 0 (by decide) _
  have e1 : ∀ x : Vec Ideal S1000x3 .f32, View.ld x r0_1 = fun y => x (ix2 (n0 := 1000) (n1 := 3) ⟨(y 0).val, (y 0).isLt⟩ 1) :=
    fun x => ld_col (n := 1000) x 1 (by decide) _
  have e2 : ∀ x : Vec Ideal S1000x3 .f32, View.ld x r0_2 = fun y => x (ix2 (n0 := 1000) (n1 := 3) ⟨(y 0).val, (y 0).isLt⟩ 2) :=
    fun x => ld_col (n := 1000) x 2 (by decide) _
  simp only [e0, e1, e2]
  rcases fin3_cases p with rfl | rfl | rfl <;> rcases fin4_cases q with rfl | rfl | rfl | rfl
  all_goals
    simp only [pick3_0, pick3_1, pick3_2, pick4_0, pick4_1, pick4_2, pick4_3, entry_0, entry_1, entry_2, entry_3,
      mul3, sandwich, rot, rotE_00, rotE_01, rotE_02, rotE_10, rotE_11, rotE_12, rotE_20, rotE_21, rotE_22,
      coefA, coefB, isSmall, sqLen, rowOf,
      k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56,
      mulf_apply, addf_apply, subf_apply, divf_apply, cmpf_apply, select_apply, broadcast_apply,
      sqrt_apply, sin_apply, cos_apply, exp_apply, Ideal.ofBits_def]
  all_goals first | rfl | rw [e0] | rw [e1] | rw [e2]

end Cert.KernelIdeal.Block

end
-- ==== Proof.KernelArray.lean ====
/-
  From blocks to the array. The pipeline runs the body at 2000 grid points; point `t` stages rows `1000 t … 1000 t + 999` of
  each of the four `[2000000, 3]` arguments and writes back rows `1000 t … 1000 t + 999` of the `[2000000, 3, 4]` result. The
  body's block is the specification's function of its input blocks row by row, and the specification's row `b` depends on
  row `b` of the arguments only, so what point `t` writes back is block `t` of `G` of the whole arrays. The 2000 blocks tile
  the result, so after the run the result array IS `G` of the argument arrays.
-/
import proofs.«161049_j13958643712058_1_alg».proof.Proof.Gen.KernelIdeal.Value
import proofs.«161049_j13958643712058_1_alg».proof.Proof.KernelBlock

set_option maxRecDepth 16384

noncomputable section

namespace Cert.KernelIdeal.Arr

open Cert.KernelIdeal Cert.KernelIdeal.Gen Idealize.ShloMosaic Idealize.ShloMosaic.TcCoe Idealize.SL.Sem
open Idealize.ShloMosaic.ValueIdx Cert.AffSpec
open Idealize.ShloMosaic.Pipeline (Dat)

variable (m : (ℓ : Loc nD τ sig) → Buf (Elt Ideal) ℓ) (ρ : Dev nD → PrngReg)

/-- The printed index maps, decided over the 2000 grid points: point `t` stages block `t` of rows of every input and
    writes back block `t` of the output; on the short axes the block index is always 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- WHAT POINT `t` WRITES BACK is block `t` of `G` of the argument arrays: row `r` of the point's output block is computed
    from row `r` of its input blocks, which are rows `1000 t + r` of the arrays, and `G`'s row `1000 t + r` is computed from
    exactly those rows. -/
theorem flushed_eq (c : Dev nD) (t : Fin cfg0.N) :
    (dats m 0 c).flushed 4 t = ((cfg0.win 4).blk t).view.read (Elt Ideal)
      (G (n := 2000000) (V m c main_arg0) (V m c main_arg1) (V m c main_arg2) (V m c main_arg3)) := by
  rw [Cert.KernelIdeal.Value.flushed4, Cert.KernelIdeal.Block.out_eq]
  obtain ⟨a00, a01, a10, a11, a20, a21, a30, a31, a40, a41, a42⟩ := idx_facts t
  funext j
  show G (n := 1000) (iblk m c 0 t) (iblk m c 1 t) (iblk m c 2 t) (iblk m c 3 t) j
    = G (n := 2000000) (V m c main_arg0) (V m c main_arg1) (V m c main_arg2) (V m c main_arg3) (((cfg0.win 4).blk t).view.emb j)
  have hj0 : (j 0).val < 1000 := (j 0).isLt
  have hj1 : (j 1).val < 3 := (j 1).isLt
  have hj2 : (j 2).val < 4 := (j 2).isLt
  have he1 : (((cfg0.win 4).blk t).view.emb j) 1 = j 1 :=
    Fin.ext (by show win0_4.index t (1 : Fin 3) * 3 + 1 * (j 1).val = (j 1).val; omega)
  have he2 : (((cfg0.win 4).blk t).view.emb j) 2 = j 2 :=
    Fin.ext (by show win0_4.index t (2 : Fin 3) * 4 + 1 * (j 2).val = (j 2).val; omega)
  have hrow0 : rowOf (n := 1000) (iblk m c 0 t) (j 0) = rowOf (n := 2000000) (V m c main_arg0) ((((cfg0.win 4).blk t).view.emb j) 0) := by
    funext k
    show V m c main_arg0 (((cfg0.win 0).blk t).view.emb (ix2 (j 0) k)) = V m c main_arg0 (ix2 ((((cfg0.win 4).blk t).view.emb j) 0) k)
    refine congrArg _ (funext fun a => Fin.ext ?_)
    match a with
    | ⟨0, _⟩ => show win0_0.index t (0 : Fin 2) * 1000 + 1 * (j 0).val = win0_4.index t (0 : Fin 3) * 1000 + 1 * (j 0).val; omega
    | ⟨1, _⟩ => show win0_0.index t (1 : Fin 2) * 3 + 1 * k.val = k.val; omega
  have hrow1 : rowOf (n := 1000) (iblk m c 1 t) (j 0) = rowOf (n := 2000000) (V m c main_arg1) ((((cfg0.win 4).blk t).view.emb j) 0) := by
    funext k
    show V m c main_arg1 (((cfg0.win 1).blk t).view.emb (ix2 (j 0) k)) = V m c main_arg1 (ix2 ((((cfg0.win 4).blk t).view.emb j) 0) k)
    refine congrArg _ (funext fun a => Fin.ext ?_)
    match a with
    | ⟨0, _⟩ => show win0_1.index t (0 : Fin 2) * 1000 + 1 * (j 0).val = win0_4.index t (0 : Fin 3) * 1000 + 1 * (j 0).val; omega
    | ⟨1, _⟩ => show win0_1.index t (1 : Fin 2) * 3 + 1 * k.val = k.val; omega
  have hrow2 : rowOf (n := 1000) (iblk m c 2 t) (j 0) = rowOf (n := 2000000) (V m c main_arg2) ((((cfg0.win 4).blk t).view.emb j) 0) := by
    funext k
    show V m c main_arg2 (((cfg0.win 2).blk t).view.emb (ix2 (j 0) k)) = V m c main_arg2 (ix2 ((((cfg0.win 4).blk t).view.emb j) 0) k)
    refine congrArg _ (funext fun a => Fin.ext ?_)
    match a with
    | ⟨0, _⟩ => show win0_2.index t (0 : Fin 2) * 1000 + 1 * (j 0).val = win0_4.index t (0 : Fin 3) * 1000 + 1 * (j 0).val; omega
    | ⟨1, _⟩ => show win0_2.index t (1 : Fin 2) * 3 + 1 * k.val = k.val; omega
  have hrow3 : rowOf (n := 1000) (iblk m c 3 t) (j 0) = rowOf (n := 2000000) (V m c main_arg3) ((((cfg0.win 4).blk t).view.emb j) 0) := by
    funext k
    show V m c main_arg3 (((cfg0.win 3).blk t).view.emb (ix2 (j 0) k)) = V m c main_arg3 (ix2 ((((cfg0.win 4).blk t).view.emb j) 0) k)
    refine congrArg _ (funext fun a => Fin.ext ?_)
    match a with
    | ⟨0, _⟩ => show win0_3.index t (0 : Fin 2) * 1000 + 1 * (j 0).val = win0_4.index t (0 : Fin 3) * 1000 + 1 * (j 0).val; omega
    | ⟨1, _⟩ => show win0_3.index t (1 : Fin 2) * 3 + 1 * k.val = k.val; omega
  show entry (rowOf (n := 1000) (iblk m c 0 t) (j 0)) (rowOf (n := 1000) (iblk m c 1 t) (j 0)) (rowOf (n := 1000) (iblk m c 2 t) (j 0))
      (rowOf (n := 1000) (iblk m c 3 t) (j 0)) (j 1) (j 2)
    = entry (rowOf (n := 2000000) (V m c main_arg0) ((((cfg0.win 4).blk t).view.emb j) 0))
      (rowOf (n := 2000000) (V m c main_arg1) ((((cfg0.win 4).blk t).view.emb j) 0))
      (rowOf (n := 2000000) (V m c main_arg2) ((((cfg0.win 4).blk t).view.emb j) 0))
      (rowOf (n := 2000000) (V m c main_arg3) ((((cfg0.win 4).blk t).view.emb j) 0))
      ((((cfg0.win 4).blk t).view.emb j) 1) ((((cfg0.win 4).blk t).view.emb j) 2)
  rw [hrow0, hrow1, hrow2, hrow3, he1, he2]

/-- An index of the result array is in point `t`'s block iff each coordinate is in the block's range on its axis. -/
theorem mem_blk (t : Fin cfg0.N) (i : S2000000x3x4.Idx) :
    i ∈ ((cfg0.win 4).blk t).view.set ↔ ∀ a : Fin 3, win0_4.index t a * S1000x3x4.size a ≤ (i a).val
      ∧ (i a).val < win0_4.index t a * S1000x3x4.size a + S1000x3x4.size a := by
  show i ∈ ((View.whole main_v0).slice (win0_4.rect t)).set ↔ _
  rw [View.set_slice_whole, Rect.mem_set_unit]
  exact Iff.rfl

/-- The 2000 blocks of 1000 rows tile the array: row `b` is in block `b / 1000`. -/
theorem cover (i : S2000000x3x4.Idx) :
    ∃ t : Fin cfg0.N, (cfg0.win 4).flush t = true ∧ i ∈ ((cfg0.win 4).blk t).view.set := by
  have hi0 : (i 0).val < 2000000 := (i 0).isLt
  have hi1 : (i 1).val < 3 := (i 1).isLt
  have hi2 : (i 2).val < 4 := (i 2).isLt
  have ht : (i 0).val / 1000 < 2000 := by omega
  obtain ⟨-, -, -, -, -, -, -, -, a40, a41, a42⟩ := idx_facts ⟨(i 0).val / 1000, ht⟩
  refine ⟨⟨(i 0).val / 1000, ht⟩, flush0_4 _, ?_⟩
  rw [mem_blk]
  intro a
  match a with
  | ⟨0, _⟩ =>
    show win0_4.index ⟨(i 0).val / 1000, ht⟩ (0 : Fin 3) * 1000 ≤ (i 0).val
      ∧ (i 0).val < win0_4.index ⟨(i 0).val / 1000, ht⟩ (0 : Fin 3) * 1000 + 1000
    have e : win0_4.index ⟨(i 0).val / 1000, ht⟩ (0 : Fin 3) = (i 0).val / 1000 := a40
    omega
  | ⟨1, _⟩ =>
    show win0_4.index ⟨(i 0).val / 1000, ht⟩ (1 : Fin 3) * 3 ≤ (i 1).val
      ∧ (i 1).val < win0_4.index ⟨(i 0).val / 1000, ht⟩ (1 : Fin 3) * 3 + 3
    omega
  | ⟨2, _⟩ =>
    show win0_4.index ⟨(i 0).val / 1000, ht⟩ (2 : Fin 3) * 4 ≤ (i 2).val
      ∧ (i 2).val < win0_4.index ⟨(i 0).val / 1000, ht⟩ (2 : Fin 3) * 4 + 4
    omega

/-- THE ARRAY after the run is `G` of the argument arrays. -/
theorem final (c : Dev nD) :
    (dats m 0 c).arrAt 4 cfg0.N = G (n := 2000000) (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_eq m c t) cover

/-- The kernel's run, read: every weakly fair execution ends with the result array at `G` of the arguments, the arguments unchanged. -/
theorem run : θ_run defs (onTc (τ := τ) (main (F := Ideal))) ⟨m, fun _ => 0, ρ⟩ fun r => ∀ c : Dev nD,
      r.2.mem ((c : Thread nD τ).loc main_v0) = G (n := 2000000) (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Arr

end
-- ==== Proof.RotAlgebra.lean ====
/-
  The Rodrigues formula in its two spellings. The reference builds the rotation matrix of a row `v` as `I + a K + b K²` from
  the skew matrix `K` of `v`, squaring `K` by a 3×3 product; the kernel uses the closed form that follows from
  `K² = v vᵀ - |v|² I`. For a row of REAL numbers the two agree entry by entry, whatever extended reals the coefficients
  `a` and `b` are: only the diagonal needs the reals (there `v_i² - (v₀² + v₁² + v₂²)` must cancel `v_i²`), and off the diagonal
  the identity is sign bookkeeping, `0 + a (-v_k) = (0 - a) v_k`, plus two vanishing products.
-/
import Idealize.ShloMosaic.PureOps.Ideal.Laws
import Idealize.ShloMosaic.Lib.IdealHost
import proofs.«161049_j13958643712058_1_alg».proof.Proof.Spec

noncomputable section

namespace Cert.AffSpec

open Idealize.ShloMosaic

/-- The identity matrix's entries. -/
def eye (i j : Fin 3) : EReal := if i = j then 1 else 0

/-- The skew matrix `K` of `v` (`K u = v × u`). -/
def skew (v : Fin 3 → EReal) : Fin 3 → Fin 3 → EReal :=
  ![![lit0, -(v 2), v 1], ![v 2, lit0, -(v 0)], ![-(v 1), v 0, lit0]]

/-- `I + a K + b K²`, entry by entry, added in the order `(I + aK) + bK²`, the square a sum over the middle index. -/
def rodrigues (a b : EReal) (v : Fin 3 → EReal) (i j : Fin 3) : EReal :=
  (eye i j + a * skew v i j) + b * ∑ k : Fin 3, skew v i k * skew v k j

/-- For a REAL vector `v` the square of its skew matrix is `v vᵀ - |v|² I`, so `I + aK + bK²` is the closed form `rotE`:
    on the diagonal `-(v_j² + v_k²) = v_i² - |v|²` (this cancellation is where finiteness is used), off it the two
    zero products vanish and `a (-v_k) = (0 - a) v_k`. The coefficients `a`, `b` may be any extended reals. -/
theorem rodrigues_eq_rotE (a b : EReal) (v : Fin 3 → EReal) (x0 x1 x2 : ℝ)
    (e0 : v 0 = (x0 : EReal)) (e1 : v 1 = (x1 : EReal)) (e2 : v 2 = (x2 : EReal)) (i j : Fin 3) :
    rodrigues a b v i j = rotE a b (sqLen v) v i j := by
  have h0 : lit0 = 0 := Ideal.ofBits_zero_f32
  have h1 : lit1 = 1 := Ideal.ofBits_one_f32
  unfold rodrigues
  rw [Fin.sum_univ_three]
  match i, j with
  | ⟨0, _⟩, ⟨0, _⟩ =>
    show (eye 0 0 + a * lit0) + b * (lit0 * lit0 + -(v 2) * v 2 + v 1 * -(v 1))
      = lit1 + b * (v 0 * v 0 - (v 0 * v 0 + v 1 * v 1 + v 2 * v 2))
    rw [h0, h1, e0, e1, e2]
    have e : (0 : EReal) * 0 + -(x2 : EReal) * x2 + x1 * -(x1 : EReal) = x0 * x0 - ((x0 : EReal) * x0 + x1 * x1 + x2 * x2) := by
      exact_mod_cast (by ring : (0 : ℝ) * 0 + -x2 * x2 + x1 * -x1 = x0 * x0 - (x0 * x0 + x1 * x1 + x2 * x2))
    rw [e]; simp [eye]
  | ⟨0, _⟩, ⟨1, _⟩ =>
    show (eye 0 1 + a * -(v 2)) + b * (lit0 * -(v 2) + -(v 2) * lit0 + v 1 * v 0) = (lit0 - a) * v 2 + b * (v 0 * v 1)
    rw [h0, e0, e1, e2]
    have e : (0 : EReal) * -(x2 : EReal) + -(x2 : EReal) * 0 + x1 * x0 = (x0 : EReal) * x1 := by
      exact_mod_cast (by ring : (0 : ℝ) * -x2 + -x2 * 0 + x1 * x0 = x0 * x1)
    rw [e]; simp [eye]
  | ⟨0, _⟩, ⟨2, _⟩ =>
    show (eye 0 2 + a * v 1) + b * (lit0 * v 1 + -(v 2) * -(v 0) + v 1 * lit0) = a * v 1 + b * (v 0 * v 2)
    rw [h0, e0, e1, e2]
    have e : (0 : EReal) * (x1 : EReal) + -(x2 : EReal) * -(x0 : EReal) + x1 * 0 = (x0 : EReal) * x2 := by
      exact_mod_cast (by ring : (0 : ℝ) * x1 + -x2 * -x0 + x1 * 0 = x0 * x2)
    rw [e]; simp [eye]
  | ⟨1, _⟩, ⟨0, _⟩ =>
    show (eye 1 0 + a * v 2) + b * (v 2 * lit0 + lit0 * v 2 + -(v 0) * -(v 1)) = a * v 2 + b * (v 1 * v 0)
    rw [h0, e0, e1, e2]
    have e : (x2 : EReal) * 0 + 0 * (x2 : EReal) + -(x0 : EReal) * -(x1 : EReal) = (x1 : EReal) * x0 := by
      exact_mod_cast (by ring : x2 * (0 : ℝ) + 0 * x2 + -x0 * -x1 = x1 * x0)
    rw [e]; simp [eye]
  | ⟨1, _⟩, ⟨1, _⟩ =>
    show (eye 1 1 + a * lit0) + b * (v 2 * -(v 2) + lit0 * lit0 + -(v 0) * v 0)
      = lit1 + b * (v 1 * v 1 - (v 0 * v 0 + v 1 * v 1 + v 2 * v 2))
    rw [h0, h1, e0, e1, e2]
    have e : (x2 : EReal) * -(x2 : EReal) + 0 * 0 + -(x0 : EReal) * x0 = x1 * x1 - ((x0 : EReal) * x0 + x1 * x1 + x2 * x2) := by
      exact_mod_cast (by ring : x2 * -x2 + (0 : ℝ) * 0 + -x0 * x0 = x1 * x1 - (x0 * x0 + x1 * x1 + x2 * x2))
    rw [e]; simp [eye]
  | ⟨1, _⟩, ⟨2, _⟩ =>
    show (eye 1 2 + a * -(v 0)) + b * (v 2 * v 1 + lit0 * -(v 0) + -(v 0) * lit0) = (lit0 - a) * v 0 + b * (v 1 * v 2)
    rw [h0, e0, e1, e2]
    have e : (x2 : EReal) * x1 + 0 * -(x0 : EReal) + -(x0 : EReal) * 0 = (x1 : EReal) * x2 := by
      exact_mod_cast (by ring : x2 * x1 + (0 : ℝ) * -x0 + -x0 * 0 = x1 * x2)
    rw [e]; simp [eye]
  | ⟨2, _⟩, ⟨0, _⟩ =>
    show (eye 2 0 + a * -(v 1)) + b * (-(v 1) * lit0 + v 0 * v 2 + lit0 * -(v 1)) = (lit0 - a) * v 1 + b * (v 2 * v 0)
    rw [h0, e0, e1, e2]
    have e : -(x1 : EReal) * 0 + (x0 : EReal) * x2 + 0 * -(x1 : EReal) = (x2 : EReal) * x0 := by
      exact_mod_cast (by ring : -x1 * (0 : ℝ) + x0 * x2 + 0 * -x1 = x2 * x0)
    rw [e]; simp [eye]
  | ⟨2, _⟩, ⟨1, _⟩ =>
    show (eye 2 1 + a * v 0) + b * (-(v 1) * -(v 2) + v 0 * lit0 + lit0 * v 0) = a * v 0 + b * (v 2 * v 1)
    rw [h0, e0, e1, e2]
    have e : -(x1 : EReal) * -(x2 : EReal) + (x0 : EReal) * 0 + 0 * (x0 : EReal) = (x2 : EReal) * x1 := by
      exact_mod_cast (by ring : -x1 * -x2 + x0 * (0 : ℝ) + 0 * x0 = x2 * x1)
    rw [e]; simp [eye]
  | ⟨2, _⟩, ⟨2, _⟩ =>
    show (eye 2 2 + a * lit0) + b * (-(v 1) * v 1 + v 0 * -(v 0) + lit0 * lit0)
      = lit1 + b * (v 2 * v 2 - (v 0 * v 0 + v 1 * v 1 + v 2 * v 2))
    rw [h0, h1, e0, e1, e2]
    have e : -(x1 : EReal) * x1 + (x0 : EReal) * -(x0 : EReal) + 0 * 0 = x2 * x2 - ((x0 : EReal) * x0 + x1 * x1 + x2 * x2) := by
      exact_mod_cast (by ring : -x1 * x1 + x0 * -x0 + (0 : ℝ) * 0 = x2 * x2 - (x0 * x0 + x1 * x1 + x2 * x2))
    rw [e]; simp [eye]

end Cert.AffSpec

end
-- ==== Proof.RefValue.lean ====
/-
  The reference program's result, read at an index, is the specification.

  The reference computes, for every sample `b`: `θ² = Σ v_k²` (a host sum from a zero initial value), `θ = √θ²`, the bit
  `θ < 1e-6`, the two coefficients `a`, `b` with their guarded divisors; the skew matrix `K` of row `b` (three rows, each three
  `[B, 1]` columns side by side, the rows stacked); the identity matrix (an integer compare of two iotas, converted to a
  float); `R = (I + a K) + b (K K)` with the square a batched product; the same once more for the third argument (`U`);
  then `e^s`, `diag(e^s) Uᵀ` (a transpose scaled row by row), `U (diag(e^s) Uᵀ)`, `R` times that, and the translation
  appended as a fourth column. Each operation is read at an index through its generated read lemma; the joins of columns and
  rows are read by the lemmas of LibConcatRead. Where row `b` of an argument is real, `(I + aK) + bK²` is the closed form
  `rot` (RotAlgebra), and the products are the specification's `sandwich` and `mul3` up to the association of a product
  of three factors.
-/
import proofs.«161049_j13958643712058_1_alg».proof.Proof.ReadP
import proofs.«161049_j13958643712058_1_alg».proof.Proof.Spec
import proofs.«161049_j13958643712058_1_alg».proof.Proof.RotAlgebra
import proofs.«161049_j13958643712058_1_alg».proof.Proof.LibConcatRead
import Idealize.ShloMosaic.Lib.IdealHost

set_option maxRecDepth 16384

noncomputable section

namespace Cert.ReferenceIdeal.RefValue

open Cert.ReferenceIdeal Cert.ReferenceIdeal.Gen Cert.ReferenceIdeal.ReadP Idealize.ShloMosaic Idealize.ShloMosaic.ValueIdx
open Cert.AffSpec Cert.ConcatRead

section OneArgument

variable (x : (⟨S2000000x3, .f32⟩ : BufTy).Contents (Elt Ideal)) (b : Fin 2000000)

/-- The host's sum of the squares of a row, from a zero initial value, is `θ²`. -/
theorem sq_eq : val_main_v1 (F := Ideal) x (ix1 b) = sqLen (rowOf (n := 2000000) x b) := by
  have hidx : ∀ k : Fin 3, idx_main_v1 (ix1 b) k = ix2 b k := fun k => funext fun a => by
    match a with | ⟨0, _⟩ => rfl | ⟨1, _⟩ => rfl
  rw [val_main_v1_apply, Fin.sum_univ_three]
  simp only [val_main_v0_apply, val_main_cst_apply, hidx, Ideal.mulf_def, Ideal.ofBits_def, Ideal.ofBits_zero_f32, zero_add]
  rfl

/-- The angle `θ`. -/
theorem angle_eq : val_main_v2 (F := Ideal) x (ix1 b) = Ideal.sqrt (sqLen (rowOf (n := 2000000) x b)) := by
  rw [val_main_v2_apply, sq_eq]; rfl

/-- The bit "the angle is below the threshold". -/
theorem small_eq : val_main_v4 (F := Ideal) x (ix1 b) = isSmall (sqLen (rowOf (n := 2000000) x b)) := by
  rw [val_main_v4_apply, angle_eq, val_main_v3_apply, val_main_cst_0_apply]; rfl

/-- The divisor of `sin θ`: `θ`, or `1` below the threshold. -/
theorem div1_eq : val_main_v5 (F := Ideal) x (ix1 b)
    = Scalar.select (isSmall (sqLen (rowOf (n := 2000000) x b))) lit1 (Ideal.sqrt (sqLen (rowOf (n := 2000000) x b))) := by
  rw [val_main_v5_apply, small_eq, angle_eq, val_main_call0_v1_apply, val_main_call0_v0_apply, val_main_cst_1_apply]; rfl

/-- The divisor of `1 - cos θ`: `θ²`, or `1` below the threshold. -/
theorem div2_eq : val_main_v6 (F := Ideal) x (ix1 b)
    = Scalar.select (isSmall (sqLen (rowOf (n := 2000000) x b))) lit1 (sqLen (rowOf (n := 2000000) x b)) := by
  rw [val_main_v6_apply, small_eq, sq_eq, val_main_call1_v1_apply, val_main_call1_v0_apply, val_main_cst_2_apply]; rfl

/-- The first Rodrigues coefficient, as the reference computes it. -/
theorem coefA_eq : val_main_v9 (F := Ideal) x (ix1 b) = coefA (sqLen (rowOf (n := 2000000) x b)) := by
  rw [val_main_v9_apply, small_eq, val_main_call2_v1_apply, val_main_call2_v0_apply, val_main_cst_3_apply, val_main_v8_apply,
    val_main_v7_apply, angle_eq, div1_eq]
  rfl

/-- The second Rodrigues coefficient, as the reference computes it. -/
theorem coefB_eq : val_main_v14 (F := Ideal) x (ix1 b) = coefB (sqLen (rowOf (n := 2000000) x b)) := by
  rw [val_main_v14_apply, small_eq, val_main_call3_v1_apply, val_main_call3_v0_apply, val_main_cst_5_apply, val_main_v13_apply,
    val_main_v12_apply, val_main_v11_apply, val_main_cst_4_apply, val_main_v10_apply, angle_eq, div2_eq]
  rfl

/-! ## A column of the argument, sliced out and flattened: entry `b` is the argument's entry `(b, c)` -/

theorem col16 : val_main_v16 (F := Ideal) x (ix1 b) = x (ix2 b 0) := by
  rw [val_main_v16_apply, val_main_v15_apply]
  exact congrArg x (funext fun a => Fin.ext (by match a with | ⟨0, _⟩ => exact Nat.div_one _ | ⟨1, _⟩ => rfl))
theorem col19 : val_main_v19 (F := Ideal) x (ix1 b) = x (ix2 b 2) := by
  rw [val_main_v19_apply, val_main_v18_apply]
  exact congrArg x (funext fun a => Fin.ext (by match a with | ⟨0, _⟩ => exact Nat.div_one _ | ⟨1, _⟩ => rfl))
theorem col22 : val_main_v22 (F := Ideal) x (ix1 b) = x (ix2 b 1) := by
  rw [val_main_v22_apply, val_main_v21_apply]
  exact congrArg x (funext fun a => Fin.ext (by match a with | ⟨0, _⟩ => exact Nat.div_one _ | ⟨1, _⟩ => rfl))
theorem col28 : val_main_v28 (F := Ideal) x (ix1 b) = x (ix2 b 2) := by
  rw [val_main_v28_apply, val_main_v27_apply]
  exact congrArg x (funext fun a => Fin.ext (by match a with | ⟨0, _⟩ => exact Nat.div_one _ | ⟨1, _⟩ => rfl))
theorem col30 : val_main_v30 (F := Ideal) x (ix1 b) = x (ix2 b 0) := by
  rw [val_main_v30_apply, val_main_v29_apply]
  exact congrArg x (funext fun a => Fin.ext (by match a with | ⟨0, _⟩ => exact Nat.div_one _ | ⟨1, _⟩ => rfl))
theorem col37 : val_main_v37 (F := Ideal) x (ix1 b) = x (ix2 b 1) := by
  rw [val_main_v37_apply, val_main_v36_apply]
  exact congrArg x (funext fun a => Fin.ext (by match a with | ⟨0, _⟩ => exact Nat.div_one _ | ⟨1, _⟩ => rfl))
theorem col40 : val_main_v40 (F := Ideal) x (ix1 b) = x (ix2 b 0) := by
  rw [val_main_v40_apply, val_main_v39_apply]
  exact congrArg x (funext fun a => Fin.ext (by match a with | ⟨0, _⟩ => exact Nat.div_one _ | ⟨1, _⟩ => rfl))

/-! ## The three rows of the skew matrix, each three `[B, 1]` columns side by side -/

theorem row0_eq (j : Fin 3) : val_main_v26 (F := Ideal) x (ix2 b j) = ![lit0, -(x (ix2 b 2)), x (ix2 b 1)] j := by
  have h23 : idx_main_v23 (ix2 b 0) = ix1 b := funext fun a => by match a with | ⟨0, _⟩ => rfl
  have h24 : idx_main_v24 (ix2 b 0) = ix1 b := funext fun a => by match a with | ⟨0, _⟩ => rfl
  have h25 : idx_main_v25 (ix2 b 0) = ix1 b := funext fun a => by match a with | ⟨0, _⟩ => rfl
  unfold val_main_v26
  rw [concat3_cols_apply, vec3_apply, val_main_v23_apply, val_main_v17_apply, val_main_cst_6_apply, val_main_v24_apply, h24,
    val_main_v20_apply, col19, val_main_v25_apply, h25, col22]
  rfl

theorem row1_eq (j : Fin 3) : val_main_v35 (F := Ideal) x (ix2 b j) = ![x (ix2 b 2), lit0, -(x (ix2 b 0))] j := by
  have h32 : idx_main_v32 (ix2 b 0) = ix1 b := funext fun a => by match a with | ⟨0, _⟩ => rfl
  have h34 : idx_main_v34 (ix2 b 0) = ix1 b := funext fun a => by match a with | ⟨0, _⟩ => rfl
  unfold val_main_v35
  rw [concat3_cols_apply, vec3_apply, val_main_v32_apply, h32, col28, val_main_v33_apply, val_main_v17_apply, val_main_cst_6_apply,
    val_main_v34_apply, h34, val_main_v31_apply, col30]
  rfl

theorem row2_eq (j : Fin 3) : val_main_v44 (F := Ideal) x (ix2 b j) = ![-(x (ix2 b 1)), x (ix2 b 0), lit0] j := by
  have h41 : idx_main_v41 (ix2 b 0) = ix1 b := funext fun a => by match a with | ⟨0, _⟩ => rfl
  have h42 : idx_main_v42 (ix2 b 0) = ix1 b := funext fun a => by match a with | ⟨0, _⟩ => rfl
  unfold val_main_v44
  rw [concat3_cols_apply, vec3_apply, val_main_v41_apply, h41, val_main_v38_apply, col37, val_main_v42_apply, h42, col40,
    val_main_v43_apply, val_main_v17_apply, val_main_cst_6_apply]
  rfl

/-- The stacked rows are the skew matrix of the argument's row `b`. -/
theorem skew_eq (i j : Fin 3) : val_main_v48 (F := Ideal) x (ix3 b i j) = skew (rowOf (n := 2000000) x b) i j := by
  have h45 : idx_main_v45 (ix3 b 0 j) = ix2 b j := funext fun a => by match a with | ⟨0, _⟩ => rfl | ⟨1, _⟩ => rfl
  have h46 : idx_main_v46 (ix3 b 0 j) = ix2 b j := funext fun a => by match a with | ⟨0, _⟩ => rfl | ⟨1, _⟩ => rfl
  have h47 : idx_main_v47 (ix3 b 0 j) = ix2 b j := funext fun a => by match a with | ⟨0, _⟩ => rfl | ⟨1, _⟩ => rfl
  unfold val_main_v48
  rw [concat3_slabs_apply, vec3_apply, val_main_v45_apply, h45, row0_eq, val_main_v46_apply, h46, row1_eq, val_main_v47_apply, h47,
    row2_eq, ← vec3_apply]
  rfl

/-- The identity matrix as jnp.eye prints it: the bit "row index = column index", converted to a float. -/
theorem eye_word (i j : Fin 3) :
    FloatOps.uitofp (F := Ideal) .f32 (IntOp.cmpi .eq (IntOp.addi (BitVec.ofNat 32 i.val) 0#32) (BitVec.ofNat 32 j.val)) = eye i j := by
  have hw : IntOp.cmpi .eq (IntOp.addi (BitVec.ofNat 32 i.val) 0#32) (BitVec.ofNat 32 j.val) = if i = j then 1#1 else 0#1 := by
    revert i j; decide
  show (((IntOp.cmpi .eq (IntOp.addi (BitVec.ofNat 32 i.val) 0#32) (BitVec.ofNat 32 j.val)).toNat : ℝ) : EReal) = eye i j
  rw [hw]; unfold eye; split <;> simp

theorem eye_eq (i j : Fin 3) : val_main_v59 (F := Ideal) (ix3 b i j) = eye i j := by
  rw [val_main_v59_apply, val_main_v58_apply, val_main_v54_apply, val_main_v53_apply, val_main_v52_apply, val_main_v51_apply,
    val_main_c_apply, val_main_v50_apply, val_main_v49_apply]
  exact eye_word i j

/-- The reference's rotation matrix of row `b`, as it computes it: `I + a K + b K²`. -/
theorem rod_eq (i j : Fin 3) : val_main_v65 (F := Ideal) x (ix3 b i j)
    = rodrigues (coefA (sqLen (rowOf (n := 2000000) x b))) (coefB (sqLen (rowOf (n := 2000000) x b))) (rowOf (n := 2000000) x b) i j := by
  have h56 : idx_main_v55 (idx_main_v56 (ix3 b i j)) = ix1 b := funext fun a => by match a with | ⟨0, _⟩ => rfl
  have h63 : idx_main_v61 (idx_main_v63 (ix3 b i j)) = ix1 b := funext fun a => by match a with | ⟨0, _⟩ => rfl
  have hl : ∀ k : Fin 3, lidx_main_v62 (ix3 b i j) k = ix3 b i k := fun k => funext fun a => by
    match a with | ⟨0, _⟩ => rfl | ⟨1, _⟩ => rfl | ⟨2, _⟩ => rfl
  have hr : ∀ k : Fin 3, ridx_main_v62 (ix3 b i j) k = ix3 b k j := fun k => funext fun a => by
    match a with | ⟨0, _⟩ => rfl | ⟨1, _⟩ => rfl | ⟨2, _⟩ => rfl
  rw [val_main_v65_apply, val_main_v60_apply, eye_eq, val_main_v57_apply, val_main_v56_apply, val_main_v55_apply, h56, coefA_eq, skew_eq,
    val_main_v64_apply, val_main_v63_apply, val_main_v61_apply, h63, coefB_eq, val_main_v62_apply]
  simp only [hl, hr, skew_eq]
  rfl

/-- Where row `b` of the argument is real, that is the closed form. -/
theorem rot_eq (hfin : ∀ k : Fin 3, ∃ r : ℝ, x (ix2 b k) = (r : EReal)) (i j : Fin 3) :
    val_main_v65 (F := Ideal) x (ix3 b i j) = rot (rowOf (n := 2000000) x b) i j := by
  obtain ⟨r0, e0⟩ := hfin 0
  obtain ⟨r1, e1⟩ := hfin 1
  obtain ⟨r2, e2⟩ := hfin 2
  rw [rod_eq]
  exact rodrigues_eq_rotE _ _ (rowOf (n := 2000000) x b) r0 r1 r2 e0 e1 e2 i j

/-- The reference builds its second rotation matrix by the same operations (jnp inlines the function twice). -/
theorem second_eq : val_main_v131 (F := Ideal) = val_main_v65 (F := Ideal) := by
  funext y
  rfl

end OneArgument

section AllArguments

variable (x0 x1 x2 x3 : (⟨S2000000x3, .f32⟩ : BufTy).Contents (Elt Ideal)) (b : Fin 2000000)

theorem rot2_eq (hfin : ∀ k : Fin 3, ∃ r : ℝ, x2 (ix2 b k) = (r : EReal)) (i j : Fin 3) :
    val_main_v131 (F := Ideal) x2 (ix3 b i j) = rot (rowOf (n := 2000000) x2 b) i j := by
  rw [second_eq]; exact rot_eq x2 b hfin i j

/-- `diag(e^s) Uᵀ`: entry `(k, j)` is `e^{s_k} U_jk`. -/
theorem scaledT_eq (hfin : ∀ k : Fin 3, ∃ r : ℝ, x2 (ix2 b k) = (r : EReal)) (k j : Fin 3) :
    val_main_v136 (F := Ideal) x2 x3 (ix3 b k j) = Ideal.exp (x3 (ix2 b k)) * rot (rowOf (n := 2000000) x2 b) j k := by
  have h135 : idx_main_v134 (idx_main_v135 (ix3 b k j)) = ix2 b k := funext fun a => by
    match a with | ⟨0, _⟩ => rfl | ⟨1, _⟩ => rfl
  have h133 : idx_main_v133 (ix3 b k j) = ix3 b j k := funext fun a => by
    match a with | ⟨0, _⟩ => rfl | ⟨1, _⟩ => rfl | ⟨2, _⟩ => rfl
  rw [val_main_v136_apply, val_main_v135_apply, val_main_v134_apply, h135, val_main_v132_apply, val_main_v133_apply, h133,
    rot2_eq x2 b hfin]
  rfl

/-- `U (diag(e^s) Uᵀ)`. -/
theorem sandwich_eq (hfin : ∀ k : Fin 3, ∃ r : ℝ, x2 (ix2 b k) = (r : EReal)) (i j : Fin 3) :
    val_main_v137 (F := Ideal) x2 x3 (ix3 b i j)
      = sandwich (rot (rowOf (n := 2000000) x2 b)) (fun k => Ideal.exp (rowOf (n := 2000000) x3 b k)) i j := by
  have hl : ∀ k : Fin 3, lidx_main_v137 (ix3 b i j) k = ix3 b i k := fun k => funext fun a => by
    match a with | ⟨0, _⟩ => rfl | ⟨1, _⟩ => rfl | ⟨2, _⟩ => rfl
  have hr : ∀ k : Fin 3, ridx_main_v137 (ix3 b i j) k = ix3 b k j := fun k => funext fun a => by
    match a with | ⟨0, _⟩ => rfl | ⟨1, _⟩ => rfl | ⟨2, _⟩ => rfl
  rw [val_main_v137_apply, Fin.sum_univ_three]
  simp only [hl, hr, rot2_eq x2 b hfin, scaledT_eq x2 x3 b hfin]
  unfold sandwich rowOf
  simp only [mul_assoc]

/-- `R (U diag(e^s) Uᵀ)`. -/
theorem mul3_eq (hfin1 : ∀ k : Fin 3, ∃ r : ℝ, x1 (ix2 b k) = (r : EReal)) (hfin2 : ∀ k : Fin 3, ∃ r : ℝ, x2 (ix2 b k) = (r : EReal))
    (i j : Fin 3) :
    val_main_v138 (F := Ideal) x1 x2 x3 (ix3 b i j)
      = mul3 (rot (rowOf (n := 2000000) x1 b))
          (sandwich (rot (rowOf (n := 2000000) x2 b)) (fun k => Ideal.exp (rowOf (n := 2000000) x3 b k))) i j := by
  have hl : ∀ k : Fin 3, lidx_main_v138 (ix3 b i j) k = ix3 b i k := fun k => funext fun a => by
    match a with | ⟨0, _⟩ => rfl | ⟨1, _⟩ => rfl | ⟨2, _⟩ => rfl
  have hr : ∀ k : Fin 3, ridx_main_v138 (ix3 b i j) k = ix3 b k j := fun k => funext fun a => by
    match a with | ⟨0, _⟩ => rfl | ⟨1, _⟩ => rfl | ⟨2, _⟩ => rfl
  rw [val_main_v138_apply, Fin.sum_univ_three]
  simp only [hl, hr, rot_eq x1 b hfin1, sandwich_eq x2 x3 b hfin2]
  rfl

/-- THE REFERENCE'S RESULT is the specification's function of the four arguments, where the second and third are real. -/
theorem result_eq (hfin1 : ∀ i, ∃ r : ℝ, x1 i = (r : EReal)) (hfin2 : ∀ i, ∃ r : ℝ, x2 i = (r : EReal)) :
    val_main_v140 (F := Ideal) x0 x1 x2 x3 = G (n := 2000000) x0 x1 x2 x3 := by
  funext y
  obtain ⟨b, i, j, rfl⟩ : ∃ (b : Fin 2000000) (i : Fin 3) (j : Fin 4), y = ix3 b i j := ⟨y 0, y 1, y 2, eq_ix3 y⟩
  have h139 : idx_main_v139 (ix3 b i 0) = ix2 b i := funext fun a => by
    match a with | ⟨0, _⟩ => rfl | ⟨1, _⟩ => rfl
  rw [G_apply]
  unfold val_main_v140
  rw [append_last_apply, val_main_v139_apply, h139]
  simp only [mul3_eq x1 x2 x3 b (fun k => hfin1 (ix2 b k)) (fun k => hfin2 (ix2 b k))]
  rfl

end AllArguments

end Cert.ReferenceIdeal.RefValue

end
-- ==== Proof.Finite.lean ====
/-
  Finiteness of the inputs, from the precondition. The certificate's precondition is the printed predicate
  "every float input holds finite numbers": for each of the four arguments, `all (|x| < +∞)`, the four tests joined by
  `and`. Read at the ideal instance it says that every entry of every argument is a real number (not `±∞`). Only the two
  arguments that the rotation matrices are built from (the second and the third) are needed: the closed form of a
  rotation matrix agrees with `I + aK + bK²` only where the squares `v_i²` cancel, which fails at an infinite entry.
-/
import proofs.«161049_j13958643712058_1_alg».proof.Defs
import proofs.«161049_j13958643712058_1_alg».proof.Proof.Gen.Pre_finite_inputs
import Idealize.ShloMosaic.Lib.ReduceAll
import Idealize.ShloMosaic.Lib.Affine
import Idealize.ShloMosaic.Lib.ValueIdx

noncomputable section

namespace Cert.Finite

open Idealize.ShloMosaic Idealize.ShloMosaic.ValueIdx

instance : Subsingleton Cert.Pre_finite_inputs.S_.Idx := ⟨fun _ _ => funext fun d => d.elim0⟩

/-- An extended real whose absolute value is strictly below `+∞` (the f32 pattern `0x7F800000`) is a real number. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have hinf : Ideal.ofBits .f32 0x7F800000#32 = (⊤ : EReal) := by simp [Ideal.ofBits, Ideal.ieee]
  have h' : Ideal.cmp .olt (max x (-x)) ⊤ = 1#1 := by rw [← hinf]; exact h
  induction x using EReal.rec with
  | bot => simp [Ideal.cmp] at h'
  | coe r => exact ⟨r, rfl⟩
  | top => simp [Ideal.cmp] at h'

/-- The precondition "every float input is finite", read at the second and third arguments: every entry of each is a
    real number. The printed predicate is the conjunction of four `all |x| < +∞` tests, one per argument. -/
theorem real_of_pre [Cert.Pre_finite_inputs.Facts] (a0 a1 a2 a3 : FVec Ideal Cert.Pre_finite_inputs.S2000000x3 .f32)
    (h : Cert.Pre_finite_inputs.fn (F := Ideal) a0 a1 a2 a3 = fun _ => 1#1) :
    (∀ i, ∃ r : ℝ, a1 i = (r : EReal)) ∧ (∀ i, ∃ r : ℝ, a2 i = (r : EReal)) := by
  have h0 := congrFun h ix0
  dsimp only [Cert.Pre_finite_inputs.fn, Cert.Pre_finite_inputs.fn_part1] at h0
  obtain ⟨h012, -⟩ := IntOp.andi_eq_one.1 h0
  obtain ⟨h01, h2⟩ := IntOp.andi_eq_one.1 h012
  obtain ⟨-, h1⟩ := IntOp.andi_eq_one.1 h01
  exact ⟨fun i => real_of_abs_lt_top _ (Host.reduce_andi_all _ _ _ _ _ h1 i),
    fun i => real_of_abs_lt_top _ (Host.reduce_andi_all _ _ _ _ _ h2 i)⟩

end Cert.Finite

end
-- ==== Proof.lean ====
/-
  Per-sample affine matrices from Lie-algebra coefficients: for each of 2,000,000 samples, `[R(v) · (R(w) diag(e^s) R(w)ᵀ) | t]`,
  a 3×4 matrix, where `R(·)` is the rotation matrix of a 3-vector by Rodrigues' formula. The kernel computes the rotation
  matrices in closed form on `[1000, 1]` columns, 1000 samples per grid point; the reference builds `I + aK + bK²` from the
  skew matrix with batched 3×3 products. Over the extended reals, with every input finite, the two agree entry by entry:

  * Spec: the result as one function `G` of the four argument arrays, sample by sample.
  * KernelBlock, KernelArray: the kernel's output block is `G` of its input blocks; the 2000 blocks tile the result array.
  * RotAlgebra: `I + aK + bK²` is the closed form for a real vector (`K² = v vᵀ - |v|² I`), for any coefficients `a`, `b`.
  * RefValue: the reference's operations read at an index give `G`, where the second and third arguments are real.
  * Finite: the precondition makes every entry of those two arguments real.

  The kernels' frames are the generated ones, the reference's is its run (RefRun) with the result dropped; the kernel's idealization rewrote
  nothing, so `preserves` has nothing to state.
-/
import proofs.«161049_j13958643712058_1_alg».proof.Defs
import proofs.«161049_j13958643712058_1_alg».proof.Proof.Gen.Kernel
import proofs.«161049_j13958643712058_1_alg».proof.Proof.Gen.Kernel.Skeleton
import proofs.«161049_j13958643712058_1_alg».proof.Proof.Gen.Kernel.Launch
import proofs.«161049_j13958643712058_1_alg».proof.Proof.Gen.Kernel.Points
import proofs.«161049_j13958643712058_1_alg».proof.Proof.Gen.Kernel.Frame
import proofs.«161049_j13958643712058_1_alg».proof.Proof.Gen.KernelIdeal
import proofs.«161049_j13958643712058_1_alg».proof.Proof.Gen.KernelIdeal.Skeleton
import proofs.«161049_j13958643712058_1_alg».proof.Proof.Gen.KernelIdeal.Launch
import proofs.«161049_j13958643712058_1_alg».proof.Proof.Gen.KernelIdeal.Points
import proofs.«161049_j13958643712058_1_alg».proof.Proof.Gen.KernelIdeal.Frame
import proofs.«161049_j13958643712058_1_alg».proof.Proof.Gen.ReferenceIdeal
import proofs.«161049_j13958643712058_1_alg».proof.Proof.Gen.Pre_finite_inputs
import proofs.«161049_j13958643712058_1_alg».proof.Proof.Gen.KernelIdeal.Value
import proofs.«161049_j13958643712058_1_alg».proof.Proof.ReadP
import proofs.«161049_j13958643712058_1_alg».proof.Proof.RefRun
import proofs.«161049_j13958643712058_1_alg».proof.Proof.KernelArray
import proofs.«161049_j13958643712058_1_alg».proof.Proof.RefValue
import proofs.«161049_j13958643712058_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.HandRun.run (F := Ideal) m ρ)

/-- The ideal pass rewrote no operation of the kernel: nothing to state. -/
theorem preserves : Cert.preserves_Kernel_KernelIdeal := trivial

/-- From memories agreeing on the four arguments, finite by the precondition, the kernel's result array and the
    reference's both end at `G` of the arguments. -/
theorem algebraic : Cert.algebraic_KernelIdeal_ReferenceIdeal := by
  intro m ρ m' ρ' hpre hagree
  refine ⟨_, Cert.KernelIdeal.Arr.run m ρ, ?_⟩
  refine (θ_run Cert.ReferenceIdeal.defs _ _).mono (fun _ h c => ⟨?_, (h c).2⟩)
    (Cert.ReferenceIdeal.HandRun.run (F := Ideal) m' ρ')
  obtain ⟨hf1, hf2⟩ := Cert.Finite.real_of_pre _ _ _ _ (hpre c)
  rw [(h c).1, (hagree c).1, (hagree c).2.1, (hagree c).2.2.1, (hagree c).2.2.2]
  exact Cert.ReferenceIdeal.RefValue.result_eq _ _ _ _ hf1 hf2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
